-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x256 : Shape := ⟨3, ![2, 8192, 256]⟩
abbrev S256x256 : Shape := ⟨2, ![256, 256]⟩
abbrev S_ : Shape := ⟨0, ![]⟩

class Facts : Prop where
  bcast_S_S2x8192x256 : S_.BroadcastsInDim S2x8192x256 (![] : Fin 0 → Fin S2x8192x256.rank)
  reducesTo_S2x8192x256_S_d0_1_2 : S2x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S2x8192x256 .f32) (main_arg1 : FVec F S256x256 .f32) (main_arg2 : FVec F S256x256 .f32) (main_arg3 : FVec F S256x256 .f32) : IVec S_ 1 :=
  let main_v0 : FVec F S2x8192x256 .f32 := Host.absf main_arg0
  let main_cst : FVec F S_ .f32 := constant S_ .f32 0x7F800000#32
  let main_v1 : FVec F S2x8192x256 .f32 := broadcastInDim S2x8192x256 ![] bcast_S_S2x8192x256 main_cst
  let main_v2 : IVec S2x8192x256 1 := cmpf .olt main_v0 main_v1
  let main_c : IVec S_ 1 := constantI S_ 1 1#1
  let main_v3 : IVec S_ 1 := (fun x v => Host.reduce IntOp.andi x v reducesTo_S2x8192x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S2x8192x256 : Shape := ⟨3, ![2, 8192, 256]⟩
abbrev S256x256 : Shape := ⟨2, ![256, 256]⟩
abbrev S_ : Shape := ⟨0, ![]⟩
abbrev S256x768 : Shape := ⟨2, ![256, 768]⟩
abbrev S1x1024x256 : Shape := ⟨3, ![1, 1024, 256]⟩
abbrev S1024x256 : Shape := ⟨2, ![1024, 256]⟩
abbrev S1024x768 : Shape := ⟨2, ![1024, 768]⟩
abbrev S2x1x8192 : Shape := ⟨3, ![2, 1, 8192]⟩
abbrev S1x8192x256 : Shape := ⟨3, ![1, 8192, 256]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩
abbrev S1x1x8192 : Shape := ⟨3, ![1, 1, 8192]⟩

abbrev nBuf : Space → Nat
  | .hbm => 17
  | .vmem => 25
  | .smem => 0
  | _ => 0

abbrev bufTy : (tb : Table) → Fin (tcTables nBuf tb) → BufTy
  | .hbm, ⟨0, _⟩ => ⟨S2x8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x768, .f32⟩
  | .hbm, ⟨11, _⟩ => ⟨S256x768, .bf16⟩
  | .hbm, ⟨12, _⟩ => ⟨S2x8192x256, .bf16⟩
  | .hbm, ⟨13, _⟩ => ⟨S2x8192x256, .bf16⟩
  | .hbm, ⟨14, _⟩ => ⟨S2x8192x256, .bf16⟩
  | .hbm, ⟨15, _⟩ => ⟨S2x1x8192, .f32⟩
  | .hbm, ⟨16, _⟩ => ⟨S2x8192x256, .f32⟩
  | .local _ .vmem, ⟨0, _⟩ => ⟨S1x1024x256, .f32⟩
  | .local _ .vmem, ⟨1, _⟩ => ⟨S1x1024x256, .f32⟩
  | .local _ .vmem, ⟨2, _⟩ => ⟨S256x768, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x8192x256, .bf16⟩
  | .local _ .vmem, ⟨10, _⟩ => ⟨S1x8192x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1x1024, .f32⟩
  | .local _ .vmem, ⟨14, _⟩ => ⟨S1x1x1024, .f32⟩
  | .local _ .vmem, ⟨15, _⟩ => ⟨S1x1024x256, .bf16⟩
  | .local _ .vmem, ⟨16, _⟩ => ⟨S1x1024x256, .bf16⟩
  | .local _ .vmem, ⟨17, _⟩ => ⟨S1x8192x256, .bf16⟩
  | .local _ .vmem, ⟨18, _⟩ => ⟨S1x8192x256, .bf16⟩
  | .local _ .vmem, ⟨19, _⟩ => ⟨S1x8192x256, .bf16⟩
  | .local _ .vmem, ⟨20, _⟩ => ⟨S1x8192x256, .bf16⟩
  | .local _ .vmem, ⟨21, _⟩ => ⟨S1x1x8192, .f32⟩
  | .local _ .vmem, ⟨22, _⟩ => ⟨S1x1x8192, .f32⟩
  | .local _ .vmem, ⟨23, _⟩ => ⟨S1x1024x256, .f32⟩
  | .local _ .vmem, ⟨24, _⟩ => ⟨S1x1024x256, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

@[reducible] def k1_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c1024_i32 : BitVec 32 := 1024#32
  let v11 : BitVec 32 := Scalar.muli arg5 c1024_i32
  v11
def k1_off1 (k1_t1 : Fin k1_t1_loop.trips) : Fin 3 → Nat :=
  let c0_7 : Index := 0#32
  let c0_i32 : BitVec 32 := 0#32
  let c1_i32 : BitVec 32 := 1#32
  let arg5 : BitVec 32 := Scf.iv c0_i32 c1_i32 k1_t1
  let c1024_i32 : BitVec 32 := 1024#32
  let v11 : BitVec 32 := Scalar.muli arg5 c1024_i32
  let v12 : BitVec 32 := v11
  let v13 : Index := Scalar.indexCast v12
  let c0_8 : Index := 0#32
  ![0, v13.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x8192x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 8], ![false, false]⟩

@[reducible] def k2_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k2_mult1 (k2_t1 : Fin k2_t1_loop.trips) : BitVec 32 :=
  let c0_i32 : BitVec 32 := 0#32
  let c1_i32 : BitVec 32 := 1#32
  let arg7 : BitVec 32 := Scf.iv c0_i32 c1_i32 k2_t1
  let c1024_i32 : BitVec 32 := 1024#32
  let v8 : BitVec 32 := Scalar.muli arg7 c1024_i32
  v8
def k2_off1 (k2_t1 : Fin k2_t1_loop.trips) : Fin 3 → Nat :=
  let c0_6 : Index := 0#32
  let c0_i32 : BitVec 32 := 0#32
  let c1_i32 : BitVec 32 := 1#32
  let arg7 : BitVec 32 := Scf.iv c0_i32 c1_i32 k2_t1
  let c1024_i32 : BitVec 32 := 1024#32
  let v8 : BitVec 32 := Scalar.muli arg7 c1024_i32
  let v9 : BitVec 32 := v8
  let v10 : Index := Scalar.indexCast v9
  let c0_7 : Index := 0#32
  ![0, v10.toNat, 0]
def k2_off2 (k2_t1 : Fin k2_t1_loop.trips) : Fin 3 → Nat :=
  let c0_10 : Index := 0#32
  let c0_11 : Index := 0#32
  let c0_i32 : BitVec 32 := 0#32
  let c1_i32 : BitVec 32 := 1#32
  let arg7 : BitVec 32 := Scf.iv c0_i32 c1_i32 k2_t1
  let c1024_i32 : BitVec 32 := 1024#32
  let v8 : BitVec 32 := Scalar.muli arg7 c1024_i32
  let v9 : BitVec 32 := v8
  let v16 : Index := Scalar.indexCast v9
  ![0, 0, v16.toNat]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8192x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x8192x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S256x256_S256x256_1_0 : S256x256.Transposes [1, 0] S256x256
  bcast_S_S256x256 : S_.BroadcastsInDim S256x256 (![] : Fin 0 → Fin S256x256.rank)
  concatenates_S256x256_S256x256_S256x256_S256x768_d1 : Shape.Concatenates [S256x256, S256x256, S256x256] S256x768 1
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1024x768_o0_0_S1024x256 : S1024x768.Slices ![0, 0] S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  slices_S1024x768_o0_256_S1024x256 : S1024x768.Slices ![0, 256] S1024x256
  slices_S1024x768_o0_512_S1024x256 : S1024x768.Slices ![0, 512] S1024x256
  reduces_S1024x1024_S1024 : S1024x1024.Reduces [0] S1024
  shapeCasts_S1024_S1x1024 : S1024.ShapeCasts S1x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S1024x256_S256x768_S1024x768_1_0_0_1_n_n_wf : DotDims.WF S1024x256 S256x768 S1024x768 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S2x8192x256.size a
  hwx0_0 : ∀ i : grid0.Coords, EltTy.bits .f32 = 32 ∨ (Rect.block (s := S2x8192x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x8192x256.size a
  hwx0_2 : ∀ i : grid0.Coords, EltTy.bits .bf16 = 32 ∨ (Rect.block (s := S2x8192x256) S1x1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S2x8192x256.size a
  hwx0_3 : ∀ i : grid0.Coords, EltTy.bits .bf16 = 32 ∨ (Rect.block (s := S2x8192x256) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S2x8192x256.size a
  hwx0_4 : ∀ i : grid0.Coords, EltTy.bits .bf16 = 32 ∨ (Rect.block (s := S2x8192x256) S1x1024x256.size (cc0_transform_4 i) (hinb0_4 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x1024x256.size a ≤ S1x8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x256.size a ≤ S2x8192x256.size a
  hwx1_0 : ∀ i : grid1.Coords, EltTy.bits .bf16 = 32 ∨ (Rect.block (s := S2x8192x256) S1x8192x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S2x8192x256.size a
  hwx1_1 : ∀ i : grid1.Coords, EltTy.bits .bf16 = 32 ∨ (Rect.block (s := S2x8192x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S2x1x8192.size a
  hwx1_2 : ∀ i : grid1.Coords, EltTy.bits .f32 = 32 ∨ (Rect.block (s := S2x1x8192) S1x1x1024.size (cc1_transform_2 i) (hinb1_2 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1x1024x256.size a ≤ S1x8192x256.size a
  k2_off2_inb : ∀ k2_t1 : Fin k2_t1_loop.trips, ∀ a, (k2_off2 k2_t1) a + S1x1x1024.size a ≤ S1x1x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x256.size a ≤ S2x8192x256.size a
  hwx2_0 : ∀ i : grid2.Coords, EltTy.bits .bf16 = 32 ∨ (Rect.block (s := S2x8192x256) S1x1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x8192x256.size a ≤ S2x8192x256.size a
  hwx2_1 : ∀ i : grid2.Coords, EltTy.bits .bf16 = 32 ∨ (Rect.block (s := S2x8192x256) S1x8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8192x256.size a ≤ S2x8192x256.size a
  hwx2_2 : ∀ i : grid2.Coords, EltTy.bits .bf16 = 32 ∨ (Rect.block (s := S2x8192x256) S1x8192x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x8192.size a ≤ S2x1x8192.size a
  hwx2_3 : ∀ i : grid2.Coords, EltTy.bits .f32 = 32 ∨ (Rect.block (s := S2x1x8192) S1x1x8192.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x256.size a ≤ S2x8192x256.size a
  hwx2_4 : ∀ i : grid2.Coords, EltTy.bits .f32 = 32 ∨ (Rect.block (s := S2x8192x256) S1x1024x256.size (cc2_transform_4 i) (hinb2_4 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_2) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7_0) S1x8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7_0) S1x1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S1x8192x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_2) S1x8192x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x1x8192.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x8192x256 : Shape := ⟨3, ![2, 8192, 256]⟩
abbrev S256x256 : Shape := ⟨2, ![256, 256]⟩
abbrev S2x8192x8192 : Shape := ⟨3, ![2, 8192, 8192]⟩
abbrev S_ : Shape := ⟨0, ![]⟩
abbrev S2x8192 : Shape := ⟨2, ![2, 8192]⟩
abbrev S2x1x8192 : Shape := ⟨3, ![2, 1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S2x8192x256, .f32⟩
  | .hbm, ⟨5, _⟩ => ⟨S2x8192x256, .f32⟩
  | .hbm, ⟨6, _⟩ => ⟨S2x8192x256, .f32⟩
  | .hbm, ⟨7, _⟩ => ⟨S2x8192x8192, .f32⟩
  | .hbm, ⟨8, _⟩ => ⟨S_, .f32⟩
  | .hbm, ⟨9, _⟩ => ⟨S_, .f32⟩
  | .hbm, ⟨10, _⟩ => ⟨S2x8192x8192, .f32⟩
  | .hbm, ⟨11, _⟩ => ⟨S2x8192x8192, .f32⟩
  | .hbm, ⟨12, _⟩ => ⟨S_, .f32⟩
  | .hbm, ⟨13, _⟩ => ⟨S2x8192, .f32⟩
  | .hbm, ⟨14, _⟩ => ⟨S_, .f32⟩
  | .hbm, ⟨15, _⟩ => ⟨S2x8192, .f32⟩
  | .hbm, ⟨16, _⟩ => ⟨S2x8192, .f32⟩
  | .hbm, ⟨17, _⟩ => ⟨S2x1x8192, .f32⟩
  | .hbm, ⟨18, _⟩ => ⟨S2x8192x8192, .f32⟩
  | .hbm, ⟨19, _⟩ => ⟨S2x8192x8192, .f32⟩
  | .hbm, ⟨20, _⟩ => ⟨S2x8192x8192, .f32⟩
  | .hbm, ⟨21, _⟩ => ⟨S_, .f32⟩
  | .hbm, ⟨22, _⟩ => ⟨S2x8192, .f32⟩
  | .hbm, ⟨23, _⟩ => ⟨S2x1x8192, .f32⟩
  | .hbm, ⟨24, _⟩ => ⟨S2x8192x8192, .f32⟩
  | .hbm, ⟨25, _⟩ => ⟨S2x8192x8192, .f32⟩
  | .hbm, ⟨26, _⟩ => ⟨S2x8192x256, .f32⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S2x8192x8192 : S_.BroadcastsInDim S2x8192x8192 (![] : Fin 0 → Fin S2x8192x8192.rank)
  reducesTo_S2x8192x8192_S2x8192_d1 : S2x8192x8192.ReducesTo [1] S2x8192
  h_S_ : 0 < S_.numel
  bcast_S_S2x8192 : S_.BroadcastsInDim S2x8192 (![] : Fin 0 → Fin S2x8192.rank)
  bcast_S2x8192_S2x1x8192_0_2 : S2x8192.BroadcastsInDim S2x1x8192 (![0, 2] : Fin 2 → Fin S2x1x8192.rank)
  bcast_S2x1x8192_S2x8192x8192_0_1_2 : S2x1x8192.BroadcastsInDim S2x8192x8192 (![0, 1, 2] : Fin 3 → Fin S2x8192x8192.rank)
  dot_S2x8192x256_S256x256_S2x8192x256_2_1_01_0_n_n_wf : DotDims.WF S2x8192x256 S256x256 S2x8192x256 [2] [1] [0, 1] [0] [] []
  dot_S2x8192x256_S2x8192x256_S2x8192x8192_2_2_1_1_0_0_wf : DotDims.WF S2x8192x256 S2x8192x256 S2x8192x8192 [2] [2] [1] [1] [0] [0]
  dot_S2x8192x8192_S2x8192x256_S2x8192x256_2_1_1_2_0_0_wf : DotDims.WF S2x8192x8192 S2x8192x256 S2x8192x256 [2] [1] [1] [2] [0] [0]

variable [Facts₀]

def dot_S2x8192x256_S256x256_S2x8192x256_2_1_01_0_n_n : DotDims S2x8192x256 S256x256 S2x8192x256 where
  lhsContracting := [2]
  rhsContracting := [1]
  lhsNonContracting := [0, 1]
  rhsNonContracting := [0]
  lhsBatch := []
  rhsBatch := []
  wf := dot_S2x8192x256_S256x256_S2x8192x256_2_1_01_0_n_n_wf
def dot_S2x8192x256_S2x8192x256_S2x8192x8192_2_2_1_1_0_0 : DotDims S2x8192x256 S2x8192x256 S2x8192x8192 where
  lhsContracting := [2]
  rhsContracting := [2]
  lhsNonContracting := [1]
  rhsNonContracting := [1]
  lhsBatch := [0]
  rhsBatch := [0]
  wf := dot_S2x8192x256_S2x8192x256_S2x8192x8192_2_2_1_1_0_0_wf
def dot_S2x8192x8192_S2x8192x256_S2x8192x256_2_1_1_2_0_0 : DotDims S2x8192x8192 S2x8192x256 S2x8192x256 where
  lhsContracting := [2]
  rhsContracting := [1]
  lhsNonContracting := [1]
  rhsNonContracting := [2]
  lhsBatch := [0]
  rhsBatch := [0]
  wf := dot_S2x8192x8192_S2x8192x256_S2x8192x256_2_1_1_2_0_0_wf

class Facts : Prop extends Facts₀ where

variable [Facts]
-- ==== Proof.BitsFrQkv.lean ====
import proofs.«421308_j15968688407014_3_alg».proof.Proof.Gen.Kernel.Launch
import proofs.«421308_j15968688407014_3_alg».proof.Proof.Gen.Kernel.Skeleton
import proofs.«421308_j15968688407014_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tokens' staging buffer holds their block at every point: the window is an input the body leaves in
    place, uncut and never idle, so what it holds is what a fetch there brings. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight array at every point: fetched at the first point, and at
    the later ones the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024x256 := Rect.unit (s := S1x1024x256) ![0, 0, 0] S1x1024x256.size inb_S1x1024x256_S1x1024x256_0_0_0
abbrev r0_1 : Rect S256x768 := Rect.unit (s := S256x768) ![0, 0] S256x768.size inb_S256x768_S256x768_0_0

/-! ## What the body leaves in each output window's buffer -/

/-- The first result's staging buffer after the body: its one whole-block store, of columns 0..255 of the product
    of the two loaded blocks. -/
def out0_2 (x0 : Vec F S1x1024x256 .f32) (x1 : Vec F S256x768 .bf16) : Vec F S1x1024x256 .bf16 :=
  View.canon [⟨r0_0, k0_pay2 (View.ld x0 r0_0) (View.ld x1 r0_1)⟩]

/-- The second result's: columns 256..511. -/
def out0_3 (x0 : Vec F S1x1024x256 .f32) (x1 : Vec F S256x768 .bf16) : Vec F S1x1024x256 .bf16 :=
  View.canon [⟨r0_0, k0_pay3 (View.ld x0 r0_0) (View.ld x1 r0_1)⟩]

/-- The third result's: columns 512..767. -/
def out0_4 (x0 : Vec F S1x1024x256 .f32) (x1 : Vec F S256x768 .bf16) : Vec F S1x1024x256 .bf16 :=
  View.canon [⟨r0_0, k0_pay4 (View.ld x0 r0_0) (View.ld x1 r0_1)⟩]

/-- A whole-block store covers the buffer. -/
theorem cover0 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-! ## The body's triple -/

set_option maxHeartbeats 1000000 in
/-- The kernel body on whole staging memrefs, the two inputs' at read contents and the three outputs' at anything,
    runs to the continuation holding the inputs' as they were and each output's at its whole-block store of the
    inputs' contents. -/
theorem sound_kernel0 (c : Dev nD) (E : Set ℕ) (i : grid0.Coords)
    (arg2 : Memref sig .tc .vmem S1x1024x256 .f32) (harg2 : arg2.IsWhole)
    (arg3 : Memref sig .tc .vmem S256x768 .bf16) (harg3 : arg3.IsWhole)
    (arg4 : Memref sig .tc .vmem S1x1024x256 .bf16) (harg4 : arg4.IsWhole)
    (arg5 : Memref sig .tc .vmem S1x1024x256 .bf16) (harg5 : arg5.IsWhole)
    (arg6 : Memref sig .tc .vmem S1x1024x256 .bf16) (harg6 : arg6.IsWhole)
    (x0 : Vec F S1x1024x256 .f32) (x1 : Vec F S256x768 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window: each input's block in place, each result's buffer at its store. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsFrStats.lean ====
import proofs.«421308_j15968688407014_3_alg».proof.Proof.Gen.Kernel.Launch
import proofs.«421308_j15968688407014_3_alg».proof.Proof.Gen.Kernel.Skeleton
import proofs.«421308_j15968688407014_3_alg».proof.Proof.Gen.Kernel.Points
import proofs.«421308_j15968688407014_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block (a whole batch) at every point, fetched there or not: where it
    is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole key block, loaded once before the loop. -/
abbrev r1_k : Rect S1x1024x256 := Rect.unit (s := S1x1024x256) ![0, 0, 0] S1x1024x256.size inb_S1x1024x256_S1x1024x256_0_0_0
/-- The whole result block, stored once after the loop. -/
abbrev r1_o : Rect S1x1x1024 := Rect.unit (s := S1x1x1024) ![0, 0, 0] S1x1x1024.size inb_S1x1x1024_S1x1x1024_0_0_0

/-! ## What the body leaves in the result window's buffer -/

/-- The pair the loop carries out of its last trip, from (−∞, 0): the running maximum and the running sum per key,
    over the query block x0 (read chunk by chunk inside the trips) and the key block x1. -/
def carried1 (c : Dev nD) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec F S1x8192x256 .bf16) (x1 : Vec F S1x1024x256 .bf16) : FVec F S1x1024 .f32 × FVec F S1x1024 .f32 :=
  st_k1_t1 (F := F) Variants.none c none i arg2 harg2 arg3 harg3 arg4 harg4 (View.ld x1 r1_k) (harg2.unread x0) (k1_pay1, k1_pay2) k1_t1_loop.trips

/-- The result window's staging buffer after the body: its one whole-block store of maximum + log sum. -/
def out1_2 (c : Dev nD) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec F S1x8192x256 .bf16) (x1 : Vec F S1x1024x256 .bf16) : Vec F S1x1x1024 .f32 :=
  View.canon [⟨r1_o, k1_pay6 (carried1 c i arg2 harg2 arg3 harg3 arg4 harg4 x0 x1).1 (carried1 c i arg2 harg2 arg3 harg3 arg4 harg4 x0 x1).2⟩]

/-- The one store is the whole block, so it covers it. -/
theorem cover1_2 (p0 : Vec F S1x1x1024 .f32) (y : S1x1x1024.Idx) :
    ∃ pc ∈ ([⟨r1_o, p0⟩] : List (View.Piece (Elt F) S1x1x1024 .f32)), y ∈ pc.1.set :=
  View.cover_of_tiled [⟨r1_o, p0⟩] S1x1x1024.size (by rfl) y

/-! ## The body's triple -/

set_option maxHeartbeats 1000000 in
/-- The kernel body on whole staging memrefs, the two inputs' at read contents x0, x1 and the result's at anything,
    runs to the continuation holding the inputs' as they were and the result's at out1_2 of them: the key block is
    loaded, the loop passes by its invariant (nothing stored inside), and the one store follows. -/
theorem sound_kernel1 (c : Dev nD) (E : Set ℕ) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec F S1x8192x256 .bf16) (x1 : Vec F S1x1024x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 c i arg2 harg2 arg3 harg3 arg4 harg4 x0 x1)) -∗ K ⟨⟩))
      ⊢ wp frame (wpE (defs₀ (F := F)) Variants.none c none) E (cc1__stats_kernel i arg2 harg2 arg3 harg3 arg4 harg4) K := by
  simp only [cc1__stats_kernel_eq_skeleton]; unfold cc1__stats_kernel_skel
  unfold owns
  iintro ⟨⟨%f0, %hf0, H0⟩, ⟨%f1, %hf1, H1⟩, ⟨%d2, %f2, -, H2⟩, Hk⟩
  obtain rfl := harg2.eq_unread hf0
  subst hf1
  sl_exec
  sl_step
  iapply Hk
  isplitl [H0]
  · iexists _; isplitr; · ipureintro; exact harg2.read_unread _
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them; after the body at point t each
    input's buffer at its block and the result's at out1_2 of the input blocks, on the point's staging buffers;
    the untouched rest as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BitsFrOut.lean ====
import proofs.«421308_j15968688407014_3_alg».proof.Proof.Gen.Kernel.Launch
import proofs.«421308_j15968688407014_3_alg».proof.Proof.Gen.Kernel.Skeleton
import proofs.«421308_j15968688407014_3_alg».proof.Proof.Gen.Kernel.Points
import proofs.«421308_j15968688407014_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third pallas_call (pipeline 2), at the entry contents V -/

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place: unfetched, the block index has
    not moved, so the previous point's block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place: unfetched, the block index has
    not moved, so the previous point's block is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place: unfetched, the block index has
    not moved, so the previous point's block is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place: unfetched, the block index has
    not moved, so the previous point's block is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x1024x256 := Rect.unit (s := S1x1024x256) ![0, 0, 0] S1x1024x256.size inb_S1x1024x256_S1x1024x256_0_0_0

/-! ## What the body leaves in the output window's buffer -/

/-- The accumulator the counted loop yields after all its trips, started from zero, from what the four input
    buffers read: the query block x0 through its one whole load, and the keys', values' and statistics' buffers at
    the raw contents that read x1, x2, x3 (each trip loads its chunk of them). -/
def acc2 (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole)
    (x0 : Vec F S1x1024x256 .bf16) (x1 : Vec F S1x8192x256 .bf16) (x2 : Vec F S1x8192x256 .bf16) (x3 : Vec F S1x1x8192 .f32) : FVec F S1024x256 .f32 :=
  st_k2_t1 (F := F) Variants.none c none i arg2 harg2 arg3 harg3 arg4 harg4 arg5 harg5 arg6 harg6 (View.ld x0 r2_0) (harg3.unread x1) (harg4.unread x2) (harg5.unread x3) (k2_pay1 (F := F)) k2_t1_loop.trips

/-- Window 4's staging buffer after the body: its one whole-block store, of the loop's result. -/
def out2_4 (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole)
    (x0 : Vec F S1x1024x256 .bf16) (x1 : Vec F S1x8192x256 .bf16) (x2 : Vec F S1x8192x256 .bf16) (x3 : Vec F S1x1x8192 .f32) : Vec F S1x1024x256 .f32 :=
  View.canon [⟨r2_0, k2_pay3 (acc2 c i arg2 harg2 arg3 harg3 arg4 harg4 arg5 harg5 arg6 harg6 x0 x1 x2 x3)⟩]

/-- The one store is of the whole buffer, so it covers it. -/
theorem cover2_4 (p0 : Vec F S1x1024x256 .f32) (y : S1x1024x256.Idx) :
    ∃ pc ∈ ([⟨r2_0, p0⟩] : List (View.Piece (Elt F) S1x1024x256 .f32)), y ∈ pc.1.set :=
  View.cover_of_tiled [⟨r2_0, p0⟩] S1x1024x256.size (by rfl) y

/-! ## The body's triple -/

set_option maxHeartbeats 1000000 in
/-- The kernel body on whole staging memrefs, the inputs' at read contents x0 … x3 and the output's at anything, runs
    to the continuation holding the inputs' as they were and the output's at out2_4 of them. The three buffers the
    loop reads are held at the raw contents that read x1, x2, x3, which is what the loop's invariant carries. -/
theorem sound_kernel2 (c : Dev nD) (E : Set ℕ) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole)
    (x0 : Vec F S1x1024x256 .bf16) (x1 : Vec F S1x8192x256 .bf16) (x2 : Vec F S1x8192x256 .bf16) (x3 : Vec F S1x1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 c i arg2 harg2 arg3 harg3 arg4 harg4 arg5 harg5 arg6 harg6 x0 x1 x2 x3)) -∗ K ⟨⟩))
      ⊢ wp frame (wpE (defs₀ (F := F)) Variants.none c none) E (cc2__out_kernel i arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  obtain rfl := harg3.eq_unread hf1; obtain rfl := harg4.eq_unread hf2; obtain rfl := harg5.eq_unread hf3
  sl_exec
  sl_step
  iapply Hk
  isplitl [H0]
  · iexists f0; isplitr; · ipureintro; rfl
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  exact View.read_writes_eq_canon _ _ _ (cover2_4 _)

/-! ## The pipeline's proof data -/

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window: each input's buffer at its block, the output's at out2_4 of the input
    blocks on the point's staging memrefs. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.BitsFrRun.lean ====
/-
  The run of the whole program: eight host operations, then the three pipelines, the contents of every buffer followed
  from the launch memory through each of the four items.  After a pipeline its arrays hold what its write-backs leave
  (an input array what it held, an output array its blocks' fold) and every other buffer what it held before.  From the
  last contents both the arguments (unchanged) and the result array are read.
-/
import proofs.«421308_j15968688407014_3_alg».proof.Proof.BitsFrQkv
import proofs.«421308_j15968688407014_3_alg».proof.Proof.BitsFrStats
import proofs.«421308_j15968688407014_3_alg».proof.Proof.BitsFrOut

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- Core c's buffers at launch. -/
abbrev W0 : Dev nD → Valuation τ sig (Elt F) := fun c b => m (c, b)
/-- After the host operations (the first pipeline's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- After pipeline 0: its arrays at what its write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pipeline 1: its arrays at what its write-backs leave, every other buffer as before it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pipeline 2: its arrays at what its write-backs leave, every other buffer as before it. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

/-- Argument 0 ends as launched: no host operation writes it and no region's write-backs touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Argument 1 ends as launched: no host operation writes it and no region's write-backs touch it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Argument 2 ends as launched: no host operation writes it and no region's write-backs touch it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Argument 3 ends as launched: no host operation writes it and no region's write-backs touch it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the random-number register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the random-number register. -/
abbrev Tₙ (c : Dev nD) : sProp 𝕄 := iprop(StableHlo.held (c : Thread nD τ) (Pipeline.ucRefs τ sig) (W4 m c) ∗ ∃ r, prngReg c r)

/-! ## The pipelines as segments -/

set_option backward.isDefEq.respectTransparency.types false in
/-- Pipeline 0's region over the thread state: entered with every unscoped buffer at the contents before it, left
    with them at the contents after it; its arrays are split out of the unscoped buffers on entry and put back at what
    the write-backs leave on exit; the random-number register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1's region over the thread state: entered with every unscoped buffer at the contents before it, left
    with them at the contents after it; its arrays are split out of the unscoped buffers on entry and put back at what
    the write-backs leave on exit; the random-number register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2's region over the thread state: entered with every unscoped buffer at the contents before it, left
    with them at the contents after it; its arrays are split out of the unscoped buffers on entry and put back at what
    the write-backs leave on exit; the random-number register passes through the invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every unscoped buffer ends at the last contents of the fold above. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The run with the result array named: it ends at the last pipeline's output array, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v9) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v9 (by decide))).trans (W4_arr m c 4),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Fr

end
-- ==== Proof.FrQkv.lean ====
import proofs.«421308_j15968688407014_3_alg».proof.Proof.Gen.KernelIdeal.Launch
import proofs.«421308_j15968688407014_3_alg».proof.Proof.Gen.KernelIdeal.Skeleton
import proofs.«421308_j15968688407014_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tokens' staging buffer holds their block at every point: the window is an input the body leaves in
    place, uncut and never idle, so what it holds is what a fetch there brings. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight array at every point: fetched at the first point, and at
    the later ones the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024x256 := Rect.unit (s := S1x1024x256) ![0, 0, 0] S1x1024x256.size inb_S1x1024x256_S1x1024x256_0_0_0
abbrev r0_1 : Rect S256x768 := Rect.unit (s := S256x768) ![0, 0] S256x768.size inb_S256x768_S256x768_0_0

/-! ## What the body leaves in each output window's buffer -/

/-- The first result's staging buffer after the body: its one whole-block store, of columns 0..255 of the product
    of the two loaded blocks. -/
def out0_2 (x0 : Vec F S1x1024x256 .f32) (x1 : Vec F S256x768 .bf16) : Vec F S1x1024x256 .bf16 :=
  View.canon [⟨r0_0, k0_pay2 (View.ld x0 r0_0) (View.ld x1 r0_1)⟩]

/-- The second result's: columns 256..511. -/
def out0_3 (x0 : Vec F S1x1024x256 .f32) (x1 : Vec F S256x768 .bf16) : Vec F S1x1024x256 .bf16 :=
  View.canon [⟨r0_0, k0_pay3 (View.ld x0 r0_0) (View.ld x1 r0_1)⟩]

/-- The third result's: columns 512..767. -/
def out0_4 (x0 : Vec F S1x1024x256 .f32) (x1 : Vec F S256x768 .bf16) : Vec F S1x1024x256 .bf16 :=
  View.canon [⟨r0_0, k0_pay4 (View.ld x0 r0_0) (View.ld x1 r0_1)⟩]

/-- A whole-block store covers the buffer. -/
theorem cover0 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-! ## The body's triple -/

set_option maxHeartbeats 1000000 in
/-- The kernel body on whole staging memrefs, the two inputs' at read contents and the three outputs' at anything,
    runs to the continuation holding the inputs' as they were and each output's at its whole-block store of the
    inputs' contents. -/
theorem sound_kernel0 (c : Dev nD) (E : Set ℕ) (i : grid0.Coords)
    (arg2 : Memref sig .tc .vmem S1x1024x256 .f32) (harg2 : arg2.IsWhole)
    (arg3 : Memref sig .tc .vmem S256x768 .bf16) (harg3 : arg3.IsWhole)
    (arg4 : Memref sig .tc .vmem S1x1024x256 .bf16) (harg4 : arg4.IsWhole)
    (arg5 : Memref sig .tc .vmem S1x1024x256 .bf16) (harg5 : arg5.IsWhole)
    (arg6 : Memref sig .tc .vmem S1x1024x256 .bf16) (harg6 : arg6.IsWhole)
    (x0 : Vec F S1x1024x256 .f32) (x1 : Vec F S256x768 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window: each input's block in place, each result's buffer at its store. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrStats.lean ====
import proofs.«421308_j15968688407014_3_alg».proof.Proof.Gen.KernelIdeal.Launch
import proofs.«421308_j15968688407014_3_alg».proof.Proof.Gen.KernelIdeal.Skeleton
import proofs.«421308_j15968688407014_3_alg».proof.Proof.Gen.KernelIdeal.Points
import proofs.«421308_j15968688407014_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block (a whole batch) at every point, fetched there or not: where it
    is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole key block, loaded once before the loop. -/
abbrev r1_k : Rect S1x1024x256 := Rect.unit (s := S1x1024x256) ![0, 0, 0] S1x1024x256.size inb_S1x1024x256_S1x1024x256_0_0_0
/-- The whole result block, stored once after the loop. -/
abbrev r1_o : Rect S1x1x1024 := Rect.unit (s := S1x1x1024) ![0, 0, 0] S1x1x1024.size inb_S1x1x1024_S1x1x1024_0_0_0

/-! ## What the body leaves in the result window's buffer -/

/-- The pair the loop carries out of its last trip, from (−∞, 0): the running maximum and the running sum per key,
    over the query block x0 (read chunk by chunk inside the trips) and the key block x1. -/
def carried1 (c : Dev nD) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec F S1x8192x256 .bf16) (x1 : Vec F S1x1024x256 .bf16) : FVec F S1x1024 .f32 × FVec F S1x1024 .f32 :=
  st_k1_t1 (F := F) Variants.none c none i arg2 harg2 arg3 harg3 arg4 harg4 (View.ld x1 r1_k) (harg2.unread x0) (k1_pay1, k1_pay2) k1_t1_loop.trips

/-- The result window's staging buffer after the body: its one whole-block store of maximum + log sum. -/
def out1_2 (c : Dev nD) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec F S1x8192x256 .bf16) (x1 : Vec F S1x1024x256 .bf16) : Vec F S1x1x1024 .f32 :=
  View.canon [⟨r1_o, k1_pay6 (carried1 c i arg2 harg2 arg3 harg3 arg4 harg4 x0 x1).1 (carried1 c i arg2 harg2 arg3 harg3 arg4 harg4 x0 x1).2⟩]

/-- The one store is the whole block, so it covers it. -/
theorem cover1_2 (p0 : Vec F S1x1x1024 .f32) (y : S1x1x1024.Idx) :
    ∃ pc ∈ ([⟨r1_o, p0⟩] : List (View.Piece (Elt F) S1x1x1024 .f32)), y ∈ pc.1.set :=
  View.cover_of_tiled [⟨r1_o, p0⟩] S1x1x1024.size (by rfl) y

/-! ## The body's triple -/

set_option maxHeartbeats 1000000 in
/-- The kernel body on whole staging memrefs, the two inputs' at read contents x0, x1 and the result's at anything,
    runs to the continuation holding the inputs' as they were and the result's at out1_2 of them: the key block is
    loaded, the loop passes by its invariant (nothing stored inside), and the one store follows. -/
theorem sound_kernel1 (c : Dev nD) (E : Set ℕ) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec F S1x8192x256 .bf16) (x1 : Vec F S1x1024x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 c i arg2 harg2 arg3 harg3 arg4 harg4 x0 x1)) -∗ K ⟨⟩))
      ⊢ wp frame (wpE (defs₀ (F := F)) Variants.none c none) E (cc1__stats_kernel i arg2 harg2 arg3 harg3 arg4 harg4) K := by
  simp only [cc1__stats_kernel_eq_skeleton]; unfold cc1__stats_kernel_skel
  unfold owns
  iintro ⟨⟨%f0, %hf0, H0⟩, ⟨%f1, %hf1, H1⟩, ⟨%d2, %f2, -, H2⟩, Hk⟩
  obtain rfl := harg2.eq_unread hf0
  subst hf1
  sl_exec
  sl_step
  iapply Hk
  isplitl [H0]
  · iexists _; isplitr; · ipureintro; exact harg2.read_unread _
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them; after the body at point t each
    input's buffer at its block and the result's at out1_2 of the input blocks, on the point's staging buffers;
    the untouched rest as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrOut.lean ====
import proofs.«421308_j15968688407014_3_alg».proof.Proof.Gen.KernelIdeal.Launch
import proofs.«421308_j15968688407014_3_alg».proof.Proof.Gen.KernelIdeal.Skeleton
import proofs.«421308_j15968688407014_3_alg».proof.Proof.Gen.KernelIdeal.Points
import proofs.«421308_j15968688407014_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third pallas_call (pipeline 2), at the entry contents V -/

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place: unfetched, the block index has
    not moved, so the previous point's block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place: unfetched, the block index has
    not moved, so the previous point's block is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place: unfetched, the block index has
    not moved, so the previous point's block is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place: unfetched, the block index has
    not moved, so the previous point's block is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x1024x256 := Rect.unit (s := S1x1024x256) ![0, 0, 0] S1x1024x256.size inb_S1x1024x256_S1x1024x256_0_0_0

/-! ## What the body leaves in the output window's buffer -/

/-- The accumulator the counted loop yields after all its trips, started from zero, from what the four input
    buffers read: the query block x0 through its one whole load, and the keys', values' and statistics' buffers at
    the raw contents that read x1, x2, x3 (each trip loads its chunk of them). -/
def acc2 (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole)
    (x0 : Vec F S1x1024x256 .bf16) (x1 : Vec F S1x8192x256 .bf16) (x2 : Vec F S1x8192x256 .bf16) (x3 : Vec F S1x1x8192 .f32) : FVec F S1024x256 .f32 :=
  st_k2_t1 (F := F) Variants.none c none i arg2 harg2 arg3 harg3 arg4 harg4 arg5 harg5 arg6 harg6 (View.ld x0 r2_0) (harg3.unread x1) (harg4.unread x2) (harg5.unread x3) (k2_pay1 (F := F)) k2_t1_loop.trips

/-- Window 4's staging buffer after the body: its one whole-block store, of the loop's result. -/
def out2_4 (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole)
    (x0 : Vec F S1x1024x256 .bf16) (x1 : Vec F S1x8192x256 .bf16) (x2 : Vec F S1x8192x256 .bf16) (x3 : Vec F S1x1x8192 .f32) : Vec F S1x1024x256 .f32 :=
  View.canon [⟨r2_0, k2_pay3 (acc2 c i arg2 harg2 arg3 harg3 arg4 harg4 arg5 harg5 arg6 harg6 x0 x1 x2 x3)⟩]

/-- The one store is of the whole buffer, so it covers it. -/
theorem cover2_4 (p0 : Vec F S1x1024x256 .f32) (y : S1x1024x256.Idx) :
    ∃ pc ∈ ([⟨r2_0, p0⟩] : List (View.Piece (Elt F) S1x1024x256 .f32)), y ∈ pc.1.set :=
  View.cover_of_tiled [⟨r2_0, p0⟩] S1x1024x256.size (by rfl) y

/-! ## The body's triple -/

set_option maxHeartbeats 1000000 in
/-- The kernel body on whole staging memrefs, the inputs' at read contents x0 … x3 and the output's at anything, runs
    to the continuation holding the inputs' as they were and the output's at out2_4 of them. The three buffers the
    loop reads are held at the raw contents that read x1, x2, x3, which is what the loop's invariant carries. -/
theorem sound_kernel2 (c : Dev nD) (E : Set ℕ) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole)
    (x0 : Vec F S1x1024x256 .bf16) (x1 : Vec F S1x8192x256 .bf16) (x2 : Vec F S1x8192x256 .bf16) (x3 : Vec F S1x1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 c i arg2 harg2 arg3 harg3 arg4 harg4 arg5 harg5 arg6 harg6 x0 x1 x2 x3)) -∗ K ⟨⟩))
      ⊢ wp frame (wpE (defs₀ (F := F)) Variants.none c none) E (cc2__out_kernel i arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  obtain rfl := harg3.eq_unread hf1; obtain rfl := harg4.eq_unread hf2; obtain rfl := harg5.eq_unread hf3
  sl_exec
  sl_step
  iapply Hk
  isplitl [H0]
  · iexists f0; isplitr; · ipureintro; rfl
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  exact View.read_writes_eq_canon _ _ _ (cover2_4 _)

/-! ## The pipeline's proof data -/

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window: each input's buffer at its block, the output's at out2_4 of the input
    blocks on the point's staging memrefs. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrRun.lean ====
/-
  The run of the whole program: eight host operations, then the three pipelines, the contents of every buffer followed
  from the launch memory through each of the four items.  After a pipeline its arrays hold what its write-backs leave
  (an input array what it held, an output array its blocks' fold) and every other buffer what it held before.  From the
  last contents both the arguments (unchanged) and the result array are read.
-/
import proofs.«421308_j15968688407014_3_alg».proof.Proof.FrQkv
import proofs.«421308_j15968688407014_3_alg».proof.Proof.FrStats
import proofs.«421308_j15968688407014_3_alg».proof.Proof.FrOut

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- Core c's buffers at launch. -/
abbrev W0 : Dev nD → Valuation τ sig (Elt F) := fun c b => m (c, b)
/-- After the host operations (the first pipeline's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- After pipeline 0: its arrays at what its write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pipeline 1: its arrays at what its write-backs leave, every other buffer as before it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pipeline 2: its arrays at what its write-backs leave, every other buffer as before it. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

/-- Argument 0 ends as launched: no host operation writes it and no region's write-backs touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Argument 1 ends as launched: no host operation writes it and no region's write-backs touch it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Argument 2 ends as launched: no host operation writes it and no region's write-backs touch it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Argument 3 ends as launched: no host operation writes it and no region's write-backs touch it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the random-number register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the random-number register. -/
abbrev Tₙ (c : Dev nD) : sProp 𝕄 := iprop(StableHlo.held (c : Thread nD τ) (Pipeline.ucRefs τ sig) (W4 m c) ∗ ∃ r, prngReg c r)

/-! ## The pipelines as segments -/

set_option backward.isDefEq.respectTransparency.types false in
/-- Pipeline 0's region over the thread state: entered with every unscoped buffer at the contents before it, left
    with them at the contents after it; its arrays are split out of the unscoped buffers on entry and put back at what
    the write-backs leave on exit; the random-number register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1's region over the thread state: entered with every unscoped buffer at the contents before it, left
    with them at the contents after it; its arrays are split out of the unscoped buffers on entry and put back at what
    the write-backs leave on exit; the random-number register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2's region over the thread state: entered with every unscoped buffer at the contents before it, left
    with them at the contents after it; its arrays are split out of the unscoped buffers on entry and put back at what
    the write-backs leave on exit; the random-number register passes through the invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every unscoped buffer ends at the last contents of the fold above. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The run with the result array named: it ends at the last pipeline's output array, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v9) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v9 (by decide))).trans (W4_arr m c 4),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Fr

end
-- ==== Proof.Spec.lean ====
/-
  What both programs compute, as functions of the four argument arrays read at the ideal values (extended reals).

  Tokens are indexed [batch, token, feature]; a projection weight is [out, in], so a token's projection on output
  feature e is the sum over d of x[b, n, d] · W[e, d].  Scores are s[b, i, j] = ∑ₑ q[b, i, e] · k[b, j, e].  The
  softmax is taken over the QUERY index i for a fixed key j: with M[b, j] the largest score of column j and
  L[b, j] = ∑ᵢ exp (s[b, i, j] − M[b, j]), the attention weight is exp (s − M) / L and the result is
  out[b, i, d] = ∑ⱼ weight[b, i, j] · v[b, j, d].

  The kernel folds the score scale 1/16 into the query weight, keeps one number M + log L per key, and weighs by
  exp (s − (M + log L)); the reference divides the scores by √256 and divides exp (s − M) by L.
-/
import Idealize.ShloMosaic.PureOps.Ideal
import Idealize.ShloMosaic.Lib.ValueIdx

noncomputable section

namespace Cert.Attn

open Idealize.ShloMosaic Idealize.ShloMosaic.ValueIdx
open scoped BigOperators

/-- Tokens: [batch, token, feature]. -/
abbrev T3 : Shape := ⟨3, ![2, 8192, 256]⟩
/-- A projection weight: [out, in]. -/
abbrev W2 : Shape := ⟨2, ![256, 256]⟩
/-- The three transposed weights side by side: [in, 3 · out]. -/
abbrev W3 : Shape := ⟨2, ![256, 768]⟩
/-- One number per key: [batch, 1, key]. -/
abbrev M3 : Shape := ⟨3, ![2, 1, 8192]⟩

/-- The kernel's score scale, the word of 0.0625. -/
def c16 : EReal := Ideal.ofBits .f32 0x3D800000#32
/-- The number under the reference's square root, the word of 256.0. -/
def c256 : EReal := Ideal.ofBits .f32 0x43800000#32

/-- x · Wᵀ: token n's projection on output feature e. -/
def proj (x : T3.Idx → EReal) (w : W2.Idx → EReal) (b : Fin 2) (n : Fin 8192) (e : Fin 256) : EReal :=
  ∑ d : Fin 256, x (ix3 b n d) * w (ix2 e d)

/-- The same with the weight scaled by 1/16 first: the kernel's query projection. -/
def projScaled (x : T3.Idx → EReal) (w : W2.Idx → EReal) (b : Fin 2) (n : Fin 8192) (e : Fin 256) : EReal :=
  ∑ d : Fin 256, x (ix3 b n d) * (w (ix2 e d) * c16)

/-- Token n against column off + e of the [in, 3 · out] block of weights. -/
def projCat (x : T3.Idx → EReal) (wc : W3.Idx → EReal) (off : Nat) (hoff : off + 256 ≤ 768)
    (b : Fin 2) (n : Fin 8192) (e : Fin 256) : EReal :=
  ∑ d : Fin 256, x (ix3 b n d) * wc (ix2 d (⟨off + e.val, by omega⟩ : Fin 768))

/-- The block of weights the kernel multiplies by: column e' is row e' of the scaled query weight, then of the key
    weight, then of the value weight. -/
def wcat (wq wk wv : W2.Idx → EReal) : W3.Idx → EReal := fun i =>
  if h : (i 1).val < 256 then wq (ix2 (⟨(i 1).val, h⟩ : Fin 256) (i 0)) * c16
  else if h2 : (i 1).val < 512 then wk (ix2 (⟨(i 1).val - 256, by omega⟩ : Fin 256) (i 0))
  else wv (ix2 (⟨(i 1).val - 512, by have := idx2_lt1 i; omega⟩ : Fin 256) (i 0))

/-- Scores: query i against key j. -/
def score (q k : Fin 2 → Fin 8192 → Fin 256 → EReal) (b : Fin 2) (i j : Fin 8192) : EReal :=
  ∑ e : Fin 256, q b i e * k b j e

/-- The largest score of key j's column, over all queries. -/
def colMax (s : Fin 2 → Fin 8192 → Fin 8192 → EReal) (b : Fin 2) (j : Fin 8192) : EReal :=
  Finset.univ.sup fun i : Fin 8192 => s b i j

/-- The column's normaliser ∑ᵢ exp (s[i, j] − M[j]). -/
def colSum (s : Fin 2 → Fin 8192 → Fin 8192 → EReal) (b : Fin 2) (j : Fin 8192) : EReal :=
  ∑ i : Fin 8192, Ideal.exp (s b i j - colMax s b j)

/-- The one number per key the kernel keeps: M + log L. -/
def colStat (s : Fin 2 → Fin 8192 → Fin 8192 → EReal) (b : Fin 2) (j : Fin 8192) : EReal :=
  colMax s b j + Ideal.log (colSum s b j)

/-- The kernel's result from scores, per-key statistics and values. -/
def outK (s : Fin 2 → Fin 8192 → Fin 8192 → EReal) (mp : Fin 2 → Fin 8192 → EReal)
    (v : Fin 2 → Fin 8192 → Fin 256 → EReal) (b : Fin 2) (i : Fin 8192) (d : Fin 256) : EReal :=
  ∑ j : Fin 8192, Ideal.exp (s b i j - mp b j) * v b j d

/-- The reference's scores: the product divided by √256. -/
def refScore (q k : Fin 2 → Fin 8192 → Fin 256 → EReal) (b : Fin 2) (i j : Fin 8192) : EReal :=
  Ideal.div (score q k b i j) (Ideal.sqrt c256)

/-- The reference's shifted exponentials (its column maximum is taken against −∞ once more). -/
def refExp (q k : Fin 2 → Fin 8192 → Fin 256 → EReal) (b : Fin 2) (i j : Fin 8192) : EReal :=
  Ideal.exp (refScore q k b i j - max ⊥ (colMax (refScore q k) b j))

/-- The reference's result. -/
def refOut (q k v : Fin 2 → Fin 8192 → Fin 256 → EReal) (b : Fin 2) (i : Fin 8192) (d : Fin 256) : EReal :=
  ∑ j : Fin 8192, Ideal.div (refExp q k b i j) (0 + ∑ i' : Fin 8192, refExp q k b i' j) * v b j d

/-! ## The running maximum and sum over chunks of 1024 queries -/

/-- Query 1024 · t + r. -/
def chunkIx (t : Fin 8) (r : Fin 1024) : Fin 8192 := ⟨1024 * t.val + r.val, by omega⟩

/-- One chunk's update of the running pair (maximum so far, sum so far rescaled to it). -/
def onlineStep (s : Fin 8192 → EReal) (t : Fin 8) (ml : EReal × EReal) : EReal × EReal :=
  (max ml.1 (Finset.univ.sup fun r : Fin 1024 => s (chunkIx t r)),
   ml.2 * Ideal.exp (ml.1 - max ml.1 (Finset.univ.sup fun r : Fin 1024 => s (chunkIx t r)))
     + ∑ r : Fin 1024, Ideal.exp (s (chunkIx t r) - max ml.1 (Finset.univ.sup fun r : Fin 1024 => s (chunkIx t r))))

/-- The running pair before chunk t, from (−∞, 0). -/
def online (s : Fin 8192 → EReal) : ℕ → EReal × EReal
  | 0 => (⊥, 0)
  | t + 1 => if h : t < 8 then onlineStep s ⟨t, h⟩ (online s t) else online s t

end Cert.Attn

end
-- ==== Proof.ValQkv.lean ====
import proofs.«421308_j15968688407014_3_alg».proof.Proof.FrQkv
import proofs.«421308_j15968688407014_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Qkv

open Cert.KernelIdeal Cert.KernelIdeal.Gen Cert.KernelIdeal.Fr
open Idealize.ShloMosaic.Pipeline (Dat Cfg Window)
open Idealize.ShloMosaic Idealize.ShloMosaic.TcCoe Idealize.ShloMosaic.ValueIdx
open Idealize.SL.Sem
open scoped BigOperators

/-! ## The block product at an index -/

/-- The product's left index keeps the output's row -/
theorem lhs_mm_0 (j : S1024x768.Idx) (q : dot_S1024x256_S256x768_S1024x768_1_0_0_1_n_n.contr.Idx) :
    (dot_S1024x256_S256x768_S1024x768_1_0_0_1_n_n.lhsIdx j q 0).val = (j 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
/-- and runs over the contracted feature; -/
theorem lhs_mm_1 (j : S1024x768.Idx) (q : dot_S1024x256_S256x768_S1024x768_1_0_0_1_n_n.contr.Idx) :
    (dot_S1024x256_S256x768_S1024x768_1_0_0_1_n_n.lhsIdx j q 1).val = (q ⟨0, by decide⟩).val :=
  dot_S1024x256_S256x768_S1024x768_1_0_0_1_n_n.lhsIdx_val_of_single rfl j q
/-- the right index runs over the contracted feature -/
theorem rhs_mm_0 (j : S1024x768.Idx) (q : dot_S1024x256_S256x768_S1024x768_1_0_0_1_n_n.contr.Idx) :
    (dot_S1024x256_S256x768_S1024x768_1_0_0_1_n_n.rhsIdx j q 0).val = (q ⟨0, by decide⟩).val :=
  dot_S1024x256_S256x768_S1024x768_1_0_0_1_n_n.rhsIdx_val_of_single rfl j q
/-- and keeps the output's column. -/
theorem rhs_mm_1 (j : S1024x768.Idx) (q : dot_S1024x256_S256x768_S1024x768_1_0_0_1_n_n.contr.Idx) :
    (dot_S1024x256_S256x768_S1024x768_1_0_0_1_n_n.rhsIdx j q 1).val = (j 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- Entry (r, col) of the 1024 x 768 product of a token block by the weights: the sum over the 256 input
    features (the narrowing of the tokens is the identity on the extended reals, the accumulator is zero). -/
theorem pay1_apply (x0 : Vec Ideal S1x1024x256 .f32) (x1 : Vec Ideal S256x768 .bf16) (r : Fin 1024) (col : Fin 768) :
    k0_pay1 (F := Ideal) x0 x1 (ix2 r col) = ∑ d : Fin 256, x0 (ix3 (0 : Fin 1) r d) * x1 (ix2 d col) := by
  unfold k0_pay1
  simp only [matmul]
  rw [Ideal.matmul_constant_zero_apply, ← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 r col) ((ValueIdx.contrEquiv1 dot_S1024x256_S256x768_S1024x768_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S1024x256_S256x768_S1024x768_1_0_0_1_n_n.rhsIdx (ix2 r col) ((ValueIdx.contrEquiv1 dot_S1024x256_S256x768_S1024x768_1_0_0_1_n_n 256 rfl rfl).symm k) = ix2 k col := funext fun a => Fin.ext (by
    match a with
    | ⟨0, _⟩ => exact (rhs_mm_0 _ _).trans hk
    | ⟨1, _⟩ => exact rhs_mm_1 _ _)
  rw [el, er, truncf_apply, shapeCast_1ab_ab_apply, shapeCast_self]

/-! ## The three stored slices at an index -/

/-- Entry (r, e) of the first result's block: column e of the product. -/
theorem pay2_apply (x0 : Vec Ideal S1x1024x256 .f32) (x1 : Vec Ideal S256x768 .bf16) (r : Fin 1024) (e : Fin 256) :
    k0_pay2 (F := Ideal) x0 x1 (ix3 (0 : Fin 1) r e) = ∑ d : Fin 256, x0 (ix3 (0 : Fin 1) r d) * x1 (ix2 d (⟨0 + e.val, by omega⟩ : Fin 768)) := by
  unfold k0_pay2
  rw [shapeCast_ab_1ab_apply, truncf_apply, slice2_axis1_eq, pay1_apply]

/-- Entry (r, e) of the second result's block: column 256 + e of the product. -/
theorem pay3_apply (x0 : Vec Ideal S1x1024x256 .f32) (x1 : Vec Ideal S256x768 .bf16) (r : Fin 1024) (e : Fin 256) :
    k0_pay3 (F := Ideal) x0 x1 (ix3 (0 : Fin 1) r e) = ∑ d : Fin 256, x0 (ix3 (0 : Fin 1) r d) * x1 (ix2 d (⟨256 + e.val, by omega⟩ : Fin 768)) := by
  unfold k0_pay3
  rw [shapeCast_ab_1ab_apply, truncf_apply, slice2_axis1_eq, pay1_apply]

/-- Entry (r, e) of the third result's block: column 512 + e of the product. -/
theorem pay4_apply (x0 : Vec Ideal S1x1024x256 .f32) (x1 : Vec Ideal S256x768 .bf16) (r : Fin 1024) (e : Fin 256) :
    k0_pay4 (F := Ideal) x0 x1 (ix3 (0 : Fin 1) r e) = ∑ d : Fin 256, x0 (ix3 (0 : Fin 1) r d) * x1 (ix2 d (⟨512 + e.val, by omega⟩ : Fin 768)) := by
  unfold k0_pay4
  rw [shapeCast_ab_1ab_apply, truncf_apply, slice2_axis1_eq, pay1_apply]

/-! ## From blocks to the arrays -/

-- the TensorCore's buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The tokens and the side-by-side weights as the region finds them, and their blocks at a point, at their
    literal types. -/
abbrev xarr (c : Dev nD) : Vec Ideal S2x8192x256 .f32 := V c main_arg0
abbrev warr (c : Dev nD) : Vec Ideal S256x768 .bf16 := V c main_v6
abbrev xblk (c : Dev nD) (t : Fin cfg0.N) : Vec Ideal S1x1024x256 .f32 := iblk0 V c 0 t
abbrev wblk (c : Dev nD) (t : Fin cfg0.N) : Vec Ideal S256x768 .bf16 := iblk0 V c 1 t

/-- Token n's projection on column off + e of the weights, as a function of an index of a result array. -/
def G (c : Dev nD) (off : Nat) (hoff : off + 256 ≤ 768) : S2x8192x256.Idx → EReal :=
  fun i => Cert.Attn.projCat (xarr V c) (warr V c) off hoff (i 0) (i 1) (i 2)

/-- The printed index maps over the grid: point t is (batch t / 8, chunk t % 8) for the tokens and the three
    results; the weights' block never moves. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

theorem lt16 (t : Fin cfg0.N) : t.val < 16 := lt_of_lt_of_eq t.isLt N_0

/-- Batch and token of row r of the block at point t. -/
abbrev bOf (t : Fin cfg0.N) : Fin 2 := ⟨t.val / 8, by have := lt16 t; omega⟩
abbrev nOf (t : Fin cfg0.N) (r : Fin 1024) : Fin 8192 := ⟨1024 * (t.val % 8) + r.val, by omega⟩

/-- Row r, feature d of the tokens' block at point t is token 1024 · (t % 8) + r of batch t / 8. -/
theorem xblk_apply (c : Dev nD) (t : Fin cfg0.N) (r : Fin 1024) (d : Fin 256) :
    xblk V c t (ix3 (0 : Fin 1) r d) = xarr V c (ix3 (bOf t) (nOf t r) d) := by
  obtain ⟨e0, e1, e2, -⟩ := idx_facts t
  show xarr V c (((cfg0.win 0).blk t).view.emb (ix3 (0 : Fin 1) r d)) = xarr V c _
  refine congrArg _ (funext fun a => Fin.ext ?_)
  match a with
  | ⟨0, _⟩ => show win0_0.index t (0 : Fin 3) * 1 + 1 * 0 = t.val / 8; omega
  | ⟨1, _⟩ => show win0_0.index t (1 : Fin 3) * 1024 + 1 * r.val = 1024 * (t.val % 8) + r.val; omega
  | ⟨2, _⟩ => show win0_0.index t (2 : Fin 3) * 256 + 1 * d.val = d.val; omega

/-- The weights' block at any point is the whole weight array. -/
theorem wblk_apply (c : Dev nD) (t : Fin cfg0.N) (d : Fin 256) (col : Fin 768) :
    wblk V c t (ix2 d col) = warr V c (ix2 d col) := by
  obtain ⟨-, -, -, e3, e4, -⟩ := idx_facts t
  show warr V c (((cfg0.win 1).blk t).view.emb (ix2 d col)) = warr V c _
  refine congrArg _ (funext fun a => Fin.ext ?_)
  match a with
  | ⟨0, _⟩ => show win0_1.index t (0 : Fin 2) * 256 + 1 * d.val = d.val; omega
  | ⟨1, _⟩ => show win0_1.index t (1 : Fin 2) * 768 + 1 * col.val = col.val; omega

/-- The sum the payloads compute at row r, column off + e of the block at point t is the specification at
    token nOf t r of batch bOf t. -/
theorem point_eq (c : Dev nD) (t : Fin cfg0.N) (off : Nat) (hoff : off + 256 ≤ 768) (r : Fin 1024) (e : Fin 256) :
    ∑ d : Fin 256, xblk V c t (ix3 (0 : Fin 1) r d) * wblk V c t (ix2 d (⟨off + e.val, by omega⟩ : Fin 768))
      = G V c off hoff (ix3 (bOf t) (nOf t r) e) := by
  unfold G Cert.Attn.projCat
  exact Finset.sum_congr rfl fun d _ => by rw [xblk_apply, wblk_apply]

/-! ### The first result -/

/-- Row r, feature e of the first result's block at point t sits at token nOf t r of batch bOf t. -/
theorem emb2 (t : Fin cfg0.N) (r : Fin 1024) (e : Fin 256) :
    ((cfg0.win 2).blk t).view.emb (ix3 (0 : Fin 1) r e) = (ix3 (bOf t) (nOf t r) e : S2x8192x256.Idx) := by
  obtain ⟨-, -, -, -, -, e0, e1, e2, -⟩ := idx_facts t
  refine funext fun a => Fin.ext ?_
  match a with
  | ⟨0, _⟩ => show win0_2.index t (0 : Fin 3) * 1 + 1 * 0 = t.val / 8; omega
  | ⟨1, _⟩ => show win0_2.index t (1 : Fin 3) * 1024 + 1 * r.val = 1024 * (t.val % 8) + r.val; omega
  | ⟨2, _⟩ => show win0_2.index t (2 : Fin 3) * 256 + 1 * e.val = e.val; omega

/-- What point t writes back of the first result is block t of columns 0..255 of the specification. -/
theorem flushed2_eq (c : Dev nD) (t : Fin cfg0.N) :
    (dat0 V c).flushed 2 t = ((cfg0.win 2).blk t).view.read (Elt Ideal) (G V c 0 (by omega)) := by
  show (cfg0.win 2).cut (grid0.coords t) ((dat0 V c).after 2 t) = _
  rw [after0_2]
  unfold out0_2
  rw [View.canon_unit_zero hz3]
  simp only [View.ld_unit_zero (S := S1x1024x256) hz3, View.ld_unit_zero (S := S256x768) hz2]
  funext j
  obtain ⟨u, r, e, rfl⟩ : ∃ (u : Fin 1) (r : Fin 1024) (e : Fin 256), j = ix3 u r e := ⟨j 0, j 1, j 2, eq_ix3 j⟩
  obtain rfl : u = 0 := Subsingleton.elim _ _
  show k0_pay2 (F := Ideal) (xblk V c t) (wblk V c t) (ix3 (0 : Fin 1) r e)
    = G V c 0 (by omega) (((cfg0.win 2).blk t).view.emb (ix3 (0 : Fin 1) r e))
  rw [emb2 t r e]
  exact (pay2_apply (xblk V c t) (wblk V c t) r e).trans (point_eq V c t 0 (by omega) r e)

/-- An index of the first result is in point t's block iff each coordinate is in the block's range. -/
theorem mem_blk2 (t : Fin cfg0.N) (i : S2x8192x256.Idx) :
    i ∈ ((cfg0.win 2).blk t).view.set ↔ ∀ a : Fin 3, win0_2.index t a * S1x1024x256.size a ≤ (i a).val ∧ (i a).val < win0_2.index t a * S1x1024x256.size a + S1x1024x256.size a := by
  show i ∈ ((View.whole main_v7_0).slice (win0_2.rect t)).set ↔ _
  rw [View.set_slice_whole, Rect.mem_set_unit]
  exact Iff.rfl

/-- Every index of the first result is in some point's block: token n of batch b in point 8 · b + n / 1024. -/
theorem cover2 (i : S2x8192x256.Idx) :
    ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 256 := (i 2).isLt
  obtain ⟨t, tv⟩ : ∃ t : Fin cfg0.N, t.val = 8 * (i 0).val + (i 1).val / 1024 :=
    ⟨⟨8 * (i 0).val + (i 1).val / 1024, lt_of_lt_of_eq (by omega) N_0.symm⟩, rfl⟩
  refine ⟨t, flush0_2 t, ?_⟩
  rw [mem_blk2]
  obtain ⟨-, -, -, -, -, e0, e1, e2, -⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 256 ≤ (i 2).val ∧ (i 2).val < win0_2.index t (2 : Fin 3) * 256 + 256; omega

/-- THE FIRST RESULT after the region: token n of batch b against column e of the weights. -/
theorem arr0_2 (c : Dev nD) (b : Fin 2) (n : Fin 8192) (e : Fin 256) :
    (dat0 (F := Ideal) V c).arrAt 2 cfg0.N (ix3 b n e)
      = Cert.Attn.projCat (V c main_arg0) (V c main_v6) 0 (by omega) b n e :=
  congrFun ((dat0 V c).arrAt_eq_of_cover 2 (G V c 0 (by omega)) (fun t _ => flushed2_eq V c t) cover2) (ix3 b n e)

/-! ### The second result -/

/-- Row r, feature e of the second result's block at point t sits at token nOf t r of batch bOf t. -/
theorem emb3 (t : Fin cfg0.N) (r : Fin 1024) (e : Fin 256) :
    ((cfg0.win 3).blk t).view.emb (ix3 (0 : Fin 1) r e) = (ix3 (bOf t) (nOf t r) e : S2x8192x256.Idx) := by
  obtain ⟨-, -, -, -, -, -, -, -, e0, e1, e2, -⟩ := idx_facts t
  refine funext fun a => Fin.ext ?_
  match a with
  | ⟨0, _⟩ => show win0_3.index t (0 : Fin 3) * 1 + 1 * 0 = t.val / 8; omega
  | ⟨1, _⟩ => show win0_3.index t (1 : Fin 3) * 1024 + 1 * r.val = 1024 * (t.val % 8) + r.val; omega
  | ⟨2, _⟩ => show win0_3.index t (2 : Fin 3) * 256 + 1 * e.val = e.val; omega

/-- What point t writes back of the second result is block t of columns 256..511 of the specification. -/
theorem flushed3_eq (c : Dev nD) (t : Fin cfg0.N) :
    (dat0 V c).flushed 3 t = ((cfg0.win 3).blk t).view.read (Elt Ideal) (G V c 256 (by omega)) := by
  show (cfg0.win 3).cut (grid0.coords t) ((dat0 V c).after 3 t) = _
  rw [after0_3]
  unfold out0_3
  rw [View.canon_unit_zero hz3]
  simp only [View.ld_unit_zero (S := S1x1024x256) hz3, View.ld_unit_zero (S := S256x768) hz2]
  funext j
  obtain ⟨u, r, e, rfl⟩ : ∃ (u : Fin 1) (r : Fin 1024) (e : Fin 256), j = ix3 u r e := ⟨j 0, j 1, j 2, eq_ix3 j⟩
  obtain rfl : u = 0 := Subsingleton.elim _ _
  show k0_pay3 (F := Ideal) (xblk V c t) (wblk V c t) (ix3 (0 : Fin 1) r e)
    = G V c 256 (by omega) (((cfg0.win 3).blk t).view.emb (ix3 (0 : Fin 1) r e))
  rw [emb3 t r e]
  exact (pay3_apply (xblk V c t) (wblk V c t) r e).trans (point_eq V c t 256 (by omega) r e)

/-- An index of the second result is in point t's block iff each coordinate is in the block's range. -/
theorem mem_blk3 (t : Fin cfg0.N) (i : S2x8192x256.Idx) :
    i ∈ ((cfg0.win 3).blk t).view.set ↔ ∀ a : Fin 3, win0_3.index t a * S1x1024x256.size a ≤ (i a).val ∧ (i a).val < win0_3.index t a * S1x1024x256.size a + S1x1024x256.size a := by
  show i ∈ ((View.whole main_v7_1).slice (win0_3.rect t)).set ↔ _
  rw [View.set_slice_whole, Rect.mem_set_unit]
  exact Iff.rfl

/-- Every index of the second result is in some point's block. -/
theorem cover3 (i : S2x8192x256.Idx) :
    ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 256 := (i 2).isLt
  obtain ⟨t, tv⟩ : ∃ t : Fin cfg0.N, t.val = 8 * (i 0).val + (i 1).val / 1024 :=
    ⟨⟨8 * (i 0).val + (i 1).val / 1024, lt_of_lt_of_eq (by omega) N_0.symm⟩, rfl⟩
  refine ⟨t, flush0_3 t, ?_⟩
  rw [mem_blk3]
  obtain ⟨-, -, -, -, -, -, -, -, e0, e1, e2, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-- THE SECOND RESULT after the region: token n of batch b against column 256 + e of the weights. -/
theorem arr0_3 (c : Dev nD) (b : Fin 2) (n : Fin 8192) (e : Fin 256) :
    (dat0 (F := Ideal) V c).arrAt 3 cfg0.N (ix3 b n e)
      = Cert.Attn.projCat (V c main_arg0) (V c main_v6) 256 (by omega) b n e :=
  congrFun ((dat0 V c).arrAt_eq_of_cover 3 (G V c 256 (by omega)) (fun t _ => flushed3_eq V c t) cover3) (ix3 b n e)

/-! ### The third result -/

/-- Row r, feature e of the third result's block at point t sits at token nOf t r of batch bOf t. -/
theorem emb4 (t : Fin cfg0.N) (r : Fin 1024) (e : Fin 256) :
    ((cfg0.win 4).blk t).view.emb (ix3 (0 : Fin 1) r e) = (ix3 (bOf t) (nOf t r) e : S2x8192x256.Idx) := by
  obtain ⟨-, -, -, -, -, -, -, -, -, -, -, e0, e1, e2⟩ := idx_facts t
  refine funext fun a => Fin.ext ?_
  match a with
  | ⟨0, _⟩ => show win0_4.index t (0 : Fin 3) * 1 + 1 * 0 = t.val / 8; omega
  | ⟨1, _⟩ => show win0_4.index t (1 : Fin 3) * 1024 + 1 * r.val = 1024 * (t.val % 8) + r.val; omega
  | ⟨2, _⟩ => show win0_4.index t (2 : Fin 3) * 256 + 1 * e.val = e.val; omega

/-- What point t writes back of the third result is block t of columns 512..767 of the specification. -/
theorem flushed4_eq (c : Dev nD) (t : Fin cfg0.N) :
    (dat0 V c).flushed 4 t = ((cfg0.win 4).blk t).view.read (Elt Ideal) (G V c 512 (by omega)) := by
  show (cfg0.win 4).cut (grid0.coords t) ((dat0 V c).after 4 t) = _
  rw [after0_4]
  unfold out0_4
  rw [View.canon_unit_zero hz3]
  simp only [View.ld_unit_zero (S := S1x1024x256) hz3, View.ld_unit_zero (S := S256x768) hz2]
  funext j
  obtain ⟨u, r, e, rfl⟩ : ∃ (u : Fin 1) (r : Fin 1024) (e : Fin 256), j = ix3 u r e := ⟨j 0, j 1, j 2, eq_ix3 j⟩
  obtain rfl : u = 0 := Subsingleton.elim _ _
  show k0_pay4 (F := Ideal) (xblk V c t) (wblk V c t) (ix3 (0 : Fin 1) r e)
    = G V c 512 (by omega) (((cfg0.win 4).blk t).view.emb (ix3 (0 : Fin 1) r e))
  rw [emb4 t r e]
  exact (pay4_apply (xblk V c t) (wblk V c t) r e).trans (point_eq V c t 512 (by omega) r e)

/-- An index of the third result is in point t's block iff each coordinate is in the block's range. -/
theorem mem_blk4 (t : Fin cfg0.N) (i : S2x8192x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v7_2).slice (win0_4.rect t)).set ↔ _
  rw [View.set_slice_whole, Rect.mem_set_unit]
  exact Iff.rfl

/-- Every index of the third result is in some point's block. -/
theorem cover4 (i : S2x8192x256.Idx) :
    ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 256 := (i 2).isLt
  obtain ⟨t, tv⟩ : ∃ t : Fin cfg0.N, t.val = 8 * (i 0).val + (i 1).val / 1024 :=
    ⟨⟨8 * (i 0).val + (i 1).val / 1024, lt_of_lt_of_eq (by omega) N_0.symm⟩, rfl⟩
  refine ⟨t, flush0_4 t, ?_⟩
  rw [mem_blk4]
  obtain ⟨-, -, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- THE THIRD RESULT after the region: token n of batch b against column 512 + e of the weights. -/
theorem arr0_4 (c : Dev nD) (b : Fin 2) (n : Fin 8192) (e : Fin 256) :
    (dat0 (F := Ideal) V c).arrAt 4 cfg0.N (ix3 b n e)
      = Cert.Attn.projCat (V c main_arg0) (V c main_v6) 512 (by omega) b n e :=
  congrFun ((dat0 V c).arrAt_eq_of_cover 4 (G V c 512 (by omega)) (fun t _ => flushed4_eq V c t) cover4) (ix3 b n e)

end Cert.KernelIdeal.Val.Qkv

end
-- ==== Proof.Online.lean ====
/-
  Sums and running maxima taken chunk by chunk: eight chunks of 1024 indices are all 8192 of them.
-/
import proofs.«421308_j15968688407014_3_alg».proof.Proof.Spec

noncomputable section

namespace Cert.Attn

open Idealize.ShloMosaic Idealize.ShloMosaic.ValueIdx
open scoped BigOperators

/-! ## The indices below a chunk boundary -/

/-- The indices below 1024 · t: the first t chunks. -/
private def below (t : ℕ) : Finset (Fin 8192) := Finset.univ.filter fun j => j.val < 1024 * t

private theorem mem_below (t : ℕ) (j : Fin 8192) : j ∈ below t ↔ j.val < 1024 * t := by
  unfold below
  rw [Finset.mem_filter]
  exact ⟨fun h => h.2, fun h => ⟨Finset.mem_univ _, h⟩⟩

private theorem chunkIx_val (t : Fin 8) (r : Fin 1024) : (chunkIx t r).val = 1024 * t.val + r.val := rfl

private theorem chunkIx_inj (t : Fin 8) (r r' : Fin 1024) (h : chunkIx t r = chunkIx t r') : r = r' := by
  have h2 : (chunkIx t r).val = (chunkIx t r').val := by rw [h]
  rw [chunkIx_val, chunkIx_val] at h2
  exact Fin.ext (by omega)

private theorem below_zero : below 0 = ∅ := by
  ext j
  rw [mem_below]
  constructor
  · intro h; omega
  · intro h; exact absurd h (Finset.notMem_empty j)

/-- The first t + 1 chunks are the first t chunks and chunk t. -/
private theorem below_succ (t : ℕ) (h : t < 8) :
    below (t + 1) = below t ∪ Finset.univ.image (chunkIx ⟨t, h⟩) := by
  ext j
  rw [Finset.mem_union, mem_below, mem_below, Finset.mem_image]
  constructor
  · intro hj
    by_cases hlt : j.val < 1024 * t
    · exact Or.inl hlt
    · refine Or.inr ⟨⟨j.val - 1024 * t, by omega⟩, Finset.mem_univ _, ?_⟩
      apply Fin.ext
      rw [chunkIx_val]
      show 1024 * t + (j.val - 1024 * t) = j.val
      omega
  · rintro (hj | ⟨r, _, rfl⟩)
    · omega
    · rw [chunkIx_val]
      show 1024 * t + r.val < 1024 * (t + 1)
      have := r.isLt
      omega

private theorem below_disjoint (t : ℕ) (h : t < 8) :
    Disjoint (below t) (Finset.univ.image (chunkIx ⟨t, h⟩)) := by
  rw [Finset.disjoint_left]
  intro j hj hj2
  rw [mem_below] at hj
  rw [Finset.mem_image] at hj2
  obtain ⟨r, _, rfl⟩ := hj2
  rw [chunkIx_val] at hj
  have : 1024 * t + r.val < 1024 * t := hj
  omega

private theorem sum_below_succ (f : Fin 8192 → EReal) (t : ℕ) (h : t < 8) :
    ∑ j ∈ below (t + 1), f j = ∑ j ∈ below t, f j + ∑ r : Fin 1024, f (chunkIx ⟨t, h⟩ r) := by
  rw [below_succ t h, Finset.sum_union (below_disjoint t h),
    Finset.sum_image (fun a _ b _ hab => chunkIx_inj _ a b hab)]

private theorem sup_below_succ (f : Fin 8192 → EReal) (t : ℕ) (h : t < 8) :
    (below (t + 1)).sup f = max ((below t).sup f) (Finset.univ.sup fun r : Fin 1024 => f (chunkIx ⟨t, h⟩ r)) := by
  rw [below_succ t h, Finset.sup_union, Finset.sup_image]
  rfl

private theorem sum_below (f : Fin 8192 → EReal) (t : ℕ) :
    ∑ j ∈ below t, f j = ∑ j : Fin 8192, (if j.val < 1024 * t then f j else 0) := by
  unfold below
  rw [Finset.sum_filter]

private theorem below_eight : below 8 = Finset.univ := by
  ext j
  rw [mem_below]
  have := j.isLt
  constructor
  · intro _; exact Finset.mem_univ _
  · intro _; omega

/-! ## Sums chunk by chunk -/

/-- The same for a sum built up chunk by chunk from zero: after t chunks it is the sum over the first t chunks. -/
theorem sum_chunks_upto (f : Fin 8192 → EReal) (t : ℕ) (ht : t ≤ 8) :
    (Finset.range t).sum (fun u => if h : u < 8 then ∑ r : Fin 1024, f (chunkIx ⟨u, h⟩ r) else 0)
      = ∑ j : Fin 8192, (if j.val < 1024 * t then f j else 0) := by
  rw [← sum_below]
  induction t with
  | zero => rw [Finset.range_zero, Finset.sum_empty, below_zero, Finset.sum_empty]
  | succ t ih =>
    have h : t < 8 := by omega
    rw [Finset.sum_range_succ, ih (by omega), dif_pos h, sum_below_succ f t h]

/-- A sum over the eight chunks, then within a chunk, is the sum over all 8192 indices. -/
theorem sum_chunks (f : Fin 8192 → EReal) : ∑ t : Fin 8, ∑ r : Fin 1024, f (chunkIx t r) = ∑ j : Fin 8192, f j := by
  have h1 := sum_chunks_upto f 8 (le_refl 8)
  rw [← sum_below, below_eight] at h1
  rw [← h1, ← Fin.sum_univ_eq_sum_range (fun u => if h : u < 8 then ∑ r : Fin 1024, f (chunkIx ⟨u, h⟩ r) else 0) 8]
  apply Finset.sum_congr rfl
  intro t _
  rw [dif_pos t.isLt]

/-! ## The running maximum and sum -/

/-- A finite sum of reals, read in the extended reals, is the sum of the readings. -/
private theorem coe_sum {ι : Type*} (S : Finset ι) (g : ι → ℝ) :
    ((∑ j ∈ S, g j : ℝ) : EReal) = ∑ j ∈ S, (g j : EReal) := by
  classical
  induction S using Finset.induction_on with
  | empty => rw [Finset.sum_empty, Finset.sum_empty, EReal.coe_zero]
  | insert a S ha ih => rw [Finset.sum_insert ha, Finset.sum_insert ha, EReal.coe_add, ih]

/-- The largest of finitely many (at least one) real numbers is a real number. -/
private theorem sup_real {ι : Type*} (S : Finset ι) (hS : S.Nonempty) (s : ι → EReal)
    (hs : ∀ i, ∃ r : ℝ, s i = (r : EReal)) : ∃ m : ℝ, S.sup s = (m : EReal) := by
  classical
  induction hS using Finset.Nonempty.cons_induction with
  | singleton a =>
    obtain ⟨r, hr⟩ := hs a
    exact ⟨r, by rw [Finset.sup_singleton, hr]⟩
  | cons a S ha hS ih =>
    obtain ⟨r, hr⟩ := hs a
    obtain ⟨m, hm⟩ := ih
    refine ⟨max r m, ?_⟩
    rw [Finset.sup_cons, hm, hr]
    exact (EReal.coe_strictMono.monotone.map_max).symm

/-- Moving a sum of exponentials from one real shift to another: exp (x − m) · exp (m − m') = exp (x − m'). -/
private theorem rescale {ι : Type*} (S : Finset ι) (x : ι → ℝ) (m m' : ℝ) :
    (∑ j ∈ S, Ideal.exp ((x j : EReal) - (m : EReal))) * Ideal.exp ((m : EReal) - (m' : EReal))
      = ∑ j ∈ S, Ideal.exp ((x j : EReal) - (m' : EReal)) := by
  have e1 : ∀ j, Ideal.exp ((x j : EReal) - (m : EReal)) = ((Real.exp (x j - m) : ℝ) : EReal) := by
    intro j; rw [← EReal.coe_sub, Ideal.exp_coe]
  have e2 : ∀ j, Ideal.exp ((x j : EReal) - (m' : EReal)) = ((Real.exp (x j - m') : ℝ) : EReal) := by
    intro j; rw [← EReal.coe_sub, Ideal.exp_coe]
  have e3 : Ideal.exp ((m : EReal) - (m' : EReal)) = ((Real.exp (m - m') : ℝ) : EReal) := by
    rw [← EReal.coe_sub, Ideal.exp_coe]
  rw [Finset.sum_congr rfl (fun j _ => e1 j), Finset.sum_congr rfl (fun j _ => e2 j), e3,
    ← coe_sum, ← coe_sum, ← EReal.coe_mul, Finset.sum_mul]
  congr 1
  apply Finset.sum_congr rfl
  intro j _
  rw [← Real.exp_add, sub_add_sub_cancel]

/-- The rescaling step of the running sum: the sum taken against the set's own maximum, times
    exp (that maximum − M'), is the sum taken against M', for any real M'.  On the empty set both sides are 0. -/
private theorem step_sum {ι : Type*} (S : Finset ι) (s : ι → EReal) (hs : ∀ i, ∃ r : ℝ, s i = (r : EReal))
    (M' : EReal) (hM' : ∃ m' : ℝ, M' = (m' : EReal)) :
    (∑ j ∈ S, Ideal.exp (s j - S.sup s)) * Ideal.exp (S.sup s - M') = ∑ j ∈ S, Ideal.exp (s j - M') := by
  rcases S.eq_empty_or_nonempty with hE | hN
  · rw [hE, Finset.sum_empty, Finset.sum_empty, zero_mul]
  · obtain ⟨m, hm⟩ := sup_real S hN s hs
    obtain ⟨m', rfl⟩ := hM'
    choose x hx using hs
    have hfun : s = fun j => (x j : EReal) := funext hx
    rw [hm]
    subst hfun
    exact rescale S x m m'

private theorem online_succ (s : Fin 8192 → EReal) (t : ℕ) (h : t < 8) :
    online s (t + 1) = onlineStep s ⟨t, h⟩ (online s t) := by
  rw [online, dif_pos h]

/-- After t chunks the running pair is the maximum over the first t chunks and the sum of exp (s − that maximum)
    over them. -/
private theorem online_inv (s : Fin 8192 → EReal) (hs : ∀ i, ∃ r : ℝ, s i = (r : EReal)) (t : ℕ) (ht : t ≤ 8) :
    online s t = ((below t).sup s, ∑ j ∈ below t, Ideal.exp (s j - (below t).sup s)) := by
  induction t with
  | zero =>
    rw [below_zero, Finset.sup_empty, Finset.sum_empty]
    rfl
  | succ t ih =>
    have h : t < 8 := by omega
    have hne : (below (t + 1)).Nonempty := by
      rw [below_succ t h]
      exact Finset.Nonempty.inr (Finset.univ_nonempty.image _)
    have hM' := sup_real (below (t + 1)) hne s hs
    rw [online_succ s t h, ih (by omega)]
    unfold onlineStep
    rw [← sup_below_succ s t h]
    refine Prod.ext rfl ?_
    show (∑ j ∈ below t, Ideal.exp (s j - (below t).sup s)) * Ideal.exp ((below t).sup s - (below (t + 1)).sup s)
        + ∑ r : Fin 1024, Ideal.exp (s (chunkIx ⟨t, h⟩ r) - (below (t + 1)).sup s)
      = ∑ j ∈ below (t + 1), Ideal.exp (s j - (below (t + 1)).sup s)
    rw [step_sum (below t) s hs _ hM', sum_below_succ (fun j => Ideal.exp (s j - (below (t + 1)).sup s)) t h]

/-- The running pair after all eight chunks carries the column's maximum M and its normaliser L as M + log L,
    for a column of real scores: rescaling the old sum by exp (M_old − M_new) is exact on the reals, and the first
    chunk starts from (−∞, 0), where the rescaled old sum is 0 · exp (−∞) = 0. -/
theorem online_final (s : Fin 8192 → EReal) (hs : ∀ i, ∃ r : ℝ, s i = (r : EReal)) :
    (online s 8).1 + Ideal.log (online s 8).2
      = (Finset.univ.sup s) + Ideal.log (∑ i : Fin 8192, Ideal.exp (s i - Finset.univ.sup s)) := by
  rw [online_inv s hs 8 (le_refl 8), below_eight]

end Cert.Attn

end
-- ==== Proof.Math.lean ====
/-
  The mathematics that joins the two programs, over the extended reals, for arrays all of whose entries are real.
-/
import proofs.«421308_j15968688407014_3_alg».proof.Proof.Spec
import Mathlib.Data.EReal.Operations
import Mathlib.Analysis.SpecialFunctions.Log.Basic
import Mathlib.Analysis.SpecialFunctions.Sqrt
import Mathlib.Data.Finset.Lattice.Fold

noncomputable section

namespace Cert.Attn

open Idealize.ShloMosaic Idealize.ShloMosaic.ValueIdx
open scoped BigOperators

/-- Every value of the function is a real number (neither infinity). -/
def IsReal {α : Type} (f : α → EReal) : Prop := ∀ a, ∃ r : ℝ, f a = (r : EReal)

/-- The word of 0.0625 is the real 1/16. -/
theorem c16_eq : c16 = ((1 / 16 : ℝ) : EReal) := by
  unfold c16
  simp [Ideal.ofBits, Ideal.ieee, -EReal.coe_mul]; norm_num

/-- The word of 256.0 is the real 256. -/
private theorem c256_eq : c256 = ((256 : ℝ) : EReal) := by
  unfold c256
  simp [Ideal.ofBits, Ideal.ieee, -EReal.coe_mul]; norm_num

/-- The square root of the word of 256.0 is the real 16. -/
theorem sqrt_c256 : Ideal.sqrt c256 = ((16 : ℝ) : EReal) := by
  rw [c256_eq, Ideal.sqrt_coe, if_neg (by norm_num)]
  congr 1
  rw [show (256 : ℝ) = 16 ^ 2 by norm_num]
  exact Real.sqrt_sq (by norm_num)

/-- The three column blocks of the side-by-side weights give the three projections. -/
theorem projCat_wcat_q (x : T3.Idx → EReal) (wq wk wv : W2.Idx → EReal) :
    projCat x (wcat wq wk wv) 0 (by omega) = projScaled x wq := by
  funext b n e
  unfold projCat projScaled
  refine Finset.sum_congr rfl fun d _ => ?_
  congr 1
  have he : (0 + e.val) < 256 := by have := e.isLt; omega
  simp only [wcat]
  rw [dif_pos (by exact he)]
  congr 2
  have h1 : (⟨0 + e.val, he⟩ : Fin 256) = e := Fin.ext (Nat.zero_add _)
  show ix2 (⟨0 + e.val, he⟩ : Fin 256) d = ix2 e d
  rw [h1]
theorem projCat_wcat_k (x : T3.Idx → EReal) (wq wk wv : W2.Idx → EReal) :
    projCat x (wcat wq wk wv) 256 (by omega) = proj x wk := by
  funext b n e
  unfold projCat proj
  refine Finset.sum_congr rfl fun d _ => ?_
  congr 1
  have he := e.isLt
  simp only [wcat]
  rw [dif_neg (by show ¬ (256 + e.val < 256); omega), dif_pos (by show (256 + e.val < 512); omega)]
  congr 2
  apply Fin.ext; simp
theorem projCat_wcat_v (x : T3.Idx → EReal) (wq wk wv : W2.Idx → EReal) :
    projCat x (wcat wq wk wv) 512 (by omega) = proj x wv := by
  funext b n e
  unfold projCat proj
  refine Finset.sum_congr rfl fun d _ => ?_
  congr 1
  have he := e.isLt
  simp only [wcat]
  rw [dif_neg (by show ¬ (512 + e.val < 256); omega), dif_neg (by show ¬ (512 + e.val < 512); omega)]
  congr 2
  apply Fin.ext; simp

/-! ## Finite sums of reals inside the extended reals -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken in the extended reals, is the real sum. -/
private theorem sum_mul_coe {ι : Type} [Fintype ι] (f g : ι → ℝ) :
    ∑ i, (f i : EReal) * (g i : EReal) = ((∑ i, f i * g i : ℝ) : EReal) := by
  rw [coe_sum]; exact Finset.sum_congr rfl fun i _ => (EReal.coe_mul _ _).symm

/-- The projection of real arrays is the real sum of products. -/
private theorem proj_coe (X : T3.Idx → ℝ) (W : W2.Idx → ℝ) (b : Fin 2) (n : Fin 8192) (e : Fin 256) :
    proj (fun a => (X a : EReal)) (fun a => (W a : EReal)) b n e
      = ((∑ d : Fin 256, X (ix3 b n d) * W (ix2 e d) : ℝ) : EReal) := by
  unfold proj; exact sum_mul_coe _ _

/-- The scaled projection of real arrays is the real projection divided by 16: the factor 1/16 leaves every term. -/
private theorem projScaled_coe (X : T3.Idx → ℝ) (W : W2.Idx → ℝ) (b : Fin 2) (n : Fin 8192) (e : Fin 256) :
    projScaled (fun a => (X a : EReal)) (fun a => (W a : EReal)) b n e
      = (((∑ d : Fin 256, X (ix3 b n d) * W (ix2 e d)) * (1 / 16) : ℝ) : EReal) := by
  unfold projScaled
  rw [c16_eq, Finset.sum_mul, coe_sum]
  refine Finset.sum_congr rfl fun d _ => ?_
  rw [← EReal.coe_mul, ← EReal.coe_mul, mul_assoc]

/-- The score of real projections is the real sum of products. -/
private theorem score_coe (Q K : Fin 2 → Fin 8192 → Fin 256 → ℝ) (b : Fin 2) (i j : Fin 8192) :
    score (fun b n e => (Q b n e : EReal)) (fun b n e => (K b n e : EReal)) b i j
      = ((∑ e : Fin 256, Q b i e * K b j e : ℝ) : EReal) := by
  unfold score; exact sum_mul_coe _ _

/-- Projections of real arrays are real. -/
theorem proj_isReal (x : T3.Idx → EReal) (w : W2.Idx → EReal) (hx : IsReal x) (hw : IsReal w) (b : Fin 2) (n : Fin 8192) :
    IsReal (proj x w b n) := by
  choose X hX using hx
  choose W hW using hw
  obtain rfl : x = fun a => (X a : EReal) := funext hX
  obtain rfl : w = fun a => (W a : EReal) := funext hW
  exact fun e => ⟨_, proj_coe X W b n e⟩
theorem projScaled_isReal (x : T3.Idx → EReal) (w : W2.Idx → EReal) (hx : IsReal x) (hw : IsReal w) (b : Fin 2) (n : Fin 8192) :
    IsReal (projScaled x w b n) := by
  choose X hX using hx
  choose W hW using hw
  obtain rfl : x = fun a => (X a : EReal) := funext hX
  obtain rfl : w = fun a => (W a : EReal) := funext hW
  exact fun e => ⟨_, projScaled_coe X W b n e⟩
/-- Scores of real projections are real. -/
theorem score_isReal (q k : Fin 2 → Fin 8192 → Fin 256 → EReal) (hq : ∀ b n, IsReal (q b n)) (hk : ∀ b n, IsReal (k b n))
    (b : Fin 2) (i : Fin 8192) : IsReal (score q k b i) := by
  choose Q hQ using hq
  choose K hK using hk
  obtain rfl : q = fun b n e => (Q b n e : EReal) := by funext b n e; exact hQ b n e
  obtain rfl : k = fun b n e => (K b n e : EReal) := by funext b n e; exact hK b n e
  exact fun j => ⟨_, score_coe Q K b i j⟩

/-! ## One column of the softmax -/

/-- The largest of finitely many reals (at least one), taken in the extended reals, is one of them, so a real. -/
private theorem sup_coe_isReal {ι : Type} [Fintype ι] [Nonempty ι] (f : ι → ℝ) :
    ∃ m : ℝ, (Finset.univ.sup fun i => (f i : EReal)) = (m : EReal) := by
  obtain ⟨i, -, hi⟩ := Finset.exists_mem_eq_sup Finset.univ Finset.univ_nonempty (fun i => (f i : EReal))
  exact ⟨f i, hi⟩

/-- For real scores f and a real shift M: the normaliser L = ∑ exp (f − M) is a positive real, so
    exp (f i − (M + log L)) = exp (f i − M) / L; the maximum against −∞ and the sum from 0 change nothing. -/
private theorem weight_eq {ι : Type} [Fintype ι] [Nonempty ι] (f : ι → ℝ) (M : EReal) (hM : ∃ m : ℝ, M = (m : EReal))
    (i : ι) :
    Ideal.exp ((f i : EReal) - (M + Ideal.log (∑ i', Ideal.exp ((f i' : EReal) - M))))
      = Ideal.div (Ideal.exp ((f i : EReal) - max ⊥ M)) (0 + ∑ i', Ideal.exp ((f i' : EReal) - max ⊥ M)) := by
  obtain ⟨m, rfl⟩ := hM
  have hL : (∑ i', Ideal.exp ((f i' : EReal) - (m : EReal))) = ((∑ i', Real.exp (f i' - m) : ℝ) : EReal) := by
    rw [coe_sum]; refine Finset.sum_congr rfl fun i' _ => ?_
    rw [← EReal.coe_sub, Ideal.exp_coe]
  have hpos : 0 < ∑ i', Real.exp (f i' - m) := Finset.sum_pos (fun i' _ => Real.exp_pos _) Finset.univ_nonempty
  rw [max_eq_right bot_le, zero_add, hL, Ideal.log_coe, if_neg (not_le.mpr hpos), Ideal.div_coe hpos.ne',
    ← EReal.coe_add, ← EReal.coe_sub, ← EReal.coe_sub, Ideal.exp_coe, Ideal.exp_coe, ← EReal.coe_mul]
  congr 1
  rw [← sub_sub, Real.exp_sub, Real.exp_log hpos, one_div, div_eq_mul_inv]

/-- The kernel's result from real scores: each weight exp (s − (M + log L)) is the quotient exp (s − M) / L. -/
private theorem outK_eq (S : Fin 2 → Fin 8192 → Fin 8192 → ℝ) (v : Fin 2 → Fin 8192 → Fin 256 → EReal)
    (b : Fin 2) (i : Fin 8192) (d : Fin 256) :
    outK (fun b i j => (S b i j : EReal)) (colStat fun b i j => (S b i j : EReal)) v b i d
      = ∑ j : Fin 8192,
          Ideal.div (Ideal.exp ((S b i j : EReal) - max ⊥ (colMax (fun b i j => (S b i j : EReal)) b j)))
            (0 + ∑ i' : Fin 8192, Ideal.exp ((S b i' j : EReal) - max ⊥ (colMax (fun b i j => (S b i j : EReal)) b j)))
          * v b j d := by
  unfold outK colStat colSum
  refine Finset.sum_congr rfl fun j _ => ?_
  have h := weight_eq (fun i => S b i j) (colMax (fun b i j => (S b i j : EReal)) b j)
    (sup_coe_isReal fun i => S b i j) i
  exact congrArg (fun t => t * v b j d) h

/-- THE LAW: with real inputs the kernel's result is the reference's, entry by entry.  The scale 1/16 moves out of
    the query projection and the score (distributivity over finite sums of reals) and meets the reference's quotient
    by √256 = 16; exp (s − (M + log L)) = exp (s − M) / L for a real M and a positive real L. -/
theorem kernel_eq_reference (x : T3.Idx → EReal) (wq wk wv : W2.Idx → EReal)
    (hx : IsReal x) (hq : IsReal wq) (hk : IsReal wk) (hv : IsReal wv) (b : Fin 2) (i : Fin 8192) (d : Fin 256) :
    outK (score (projScaled x wq) (proj x wk)) (colStat (score (projScaled x wq) (proj x wk))) (proj x wv) b i d
      = refOut (proj x wq) (proj x wk) (proj x wv) b i d := by
  choose X hX using hx
  choose Wq hWq using hq
  choose Wk hWk using hk
  obtain rfl : x = fun a => (X a : EReal) := funext hX
  obtain rfl : wq = fun a => (Wq a : EReal) := funext hWq
  obtain rfl : wk = fun a => (Wk a : EReal) := funext hWk
  -- the real projections and the real scores
  let PQ : Fin 2 → Fin 8192 → Fin 256 → ℝ := fun b n e => ∑ d : Fin 256, X (ix3 b n d) * Wq (ix2 e d)
  let PK : Fin 2 → Fin 8192 → Fin 256 → ℝ := fun b n e => ∑ d : Fin 256, X (ix3 b n d) * Wk (ix2 e d)
  let S : Fin 2 → Fin 8192 → Fin 8192 → ℝ := fun b i j => (∑ e : Fin 256, PQ b i e * PK b j e) * (1 / 16)
  have hpq : proj (fun a => (X a : EReal)) (fun a => (Wq a : EReal)) = fun b n e => (PQ b n e : EReal) := by
    funext b n e; exact proj_coe X Wq b n e
  have hpk : proj (fun a => (X a : EReal)) (fun a => (Wk a : EReal)) = fun b n e => (PK b n e : EReal) := by
    funext b n e; exact proj_coe X Wk b n e
  have hpqs : projScaled (fun a => (X a : EReal)) (fun a => (Wq a : EReal))
      = fun b n e => ((PQ b n e * (1 / 16) : ℝ) : EReal) := by
    funext b n e; exact projScaled_coe X Wq b n e
  -- the kernel's scores: 1/16 leaves the sum over features
  have hsK : score (projScaled (fun a => (X a : EReal)) (fun a => (Wq a : EReal)))
      (proj (fun a => (X a : EReal)) (fun a => (Wk a : EReal))) = fun b i j => (S b i j : EReal) := by
    funext b i j
    rw [hpqs, hpk, score_coe]
    congr 1
    show ∑ e : Fin 256, PQ b i e * (1 / 16) * PK b j e = (∑ e : Fin 256, PQ b i e * PK b j e) * (1 / 16)
    rw [Finset.sum_mul]
    exact Finset.sum_congr rfl fun e _ => by ring
  -- the reference's scores: the quotient by √256 is the product with 1/16
  have hsR : refScore (proj (fun a => (X a : EReal)) (fun a => (Wq a : EReal)))
      (proj (fun a => (X a : EReal)) (fun a => (Wk a : EReal))) = fun b i j => (S b i j : EReal) := by
    funext b i j
    unfold refScore
    rw [hpq, hpk, score_coe, sqrt_c256, Ideal.div_coe (by norm_num), ← EReal.coe_mul]
  rw [hsK, outK_eq]
  unfold refOut refExp
  rw [hsR]

end Cert.Attn

end
-- ==== Proof.PayStats.lean ====
/-
  The statistics kernel's values at one key.  For one block of 1024 keys (rows of v0) and one chunk of 1024 queries
  (rows of v14) the kernel forms the 1024 × 1024 block of scores s[q, r] = ∑ₑ v14[q, e] · v0[r, e], takes each
  key's largest score over the chunk, and updates the running pair: the new maximum is the larger of the old one and
  the chunk's, and the new sum is the old sum rescaled by exp (old maximum − new maximum) plus the chunk's
  ∑ exp (s − new maximum).  After the last chunk it stores maximum + log sum.
-/
import proofs.«421308_j15968688407014_3_alg».proof.Proof.Gen.KernelIdeal.Skeleton
import proofs.«421308_j15968688407014_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## The score block: a product contracted over the feature axis of both operands -/

/-- The left operand's row is the result's row. -/
theorem lhs_score_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- The left operand's column is the contraction position. -/
theorem lhs_score_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
/-- The right operand's row is the result's column. -/
theorem rhs_score_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- The right operand's column is the contraction position. -/
theorem rhs_score_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product into the zero block, at (q, r): the sum over features of a[q, e] · b[r, e]. -/
theorem matmul_score_apply (a b : FVec Ideal S1024x256 .bf16) (q r : Fin 1024) :
    matmul dot_S1024x256_S1024x256_S1024x1024_1_1_0_0_n_n none a b (constant (F := Ideal) S1024x1024 .f32 0x00000000#32) (ix2 q r)
      = ∑ e : Fin 256, a (ix2 q e) * b (ix2 r e) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 q r) ((ValueIdx.contrEquiv1 dot_S1024x256_S1024x256_S1024x1024_1_1_0_0_n_n 256 rfl rfl).symm k) = ix2 q k := funext fun a => Fin.ext (by
    match a with
    | ⟨0, _⟩ => exact lhs_score_0 _ _
    | ⟨1, _⟩ => exact (lhs_score_1 _ _).trans hk)
  have er : dot_S1024x256_S1024x256_S1024x1024_1_1_0_0_n_n.rhsIdx (ix2 q r) ((ValueIdx.contrEquiv1 dot_S1024x256_S1024x256_S1024x1024_1_1_0_0_n_n 256 rfl rfl).symm k) = ix2 r k := funext fun a => Fin.ext (by
    match a with
    | ⟨0, _⟩ => exact rhs_score_0 _ _
    | ⟨1, _⟩ => exact (rhs_score_1 _ _).trans hk)
  rw [el, er]

/-- The score block at (q, r): query row q of the chunk against key row r of the block. -/
theorem k1_pay3_apply (v0 v14 : Vec Ideal S1x1024x256 .bf16) (q r : Fin 1024) :
    k1_pay3 v0 v14 (ix2 q r) = ∑ e : Fin 256, v14 (ix3 (0 : Fin 1) q e) * v0 (ix3 (0 : Fin 1) r e) := by
  unfold k1_pay3
  refine (matmul_score_apply _ _ q r).trans ?_
  refine Finset.sum_congr rfl fun e _ => ?_
  rw [shapeCast_1ab_ab_apply, shapeCast_1ab_ab_apply]

/-! ## Reductions down the query axis, at one key -/

/-- The word 0xFF800000 is −∞. -/
theorem ofBits_neg_inf : Ideal.ofBits .f32 0xFF800000#32 = ⊥ := by simp [Ideal.ofBits, Ideal.ieee]

/-- A fold of max from −∞ is the supremum. -/
theorem fold_max_bot {ι : Type} (S : Finset ι) (f : ι → EReal) : S.fold max ⊥ f = S.sup f := rfl

/-- The reduced index r with the coordinate q put back on the dropped axis is (q, r). -/
theorem lift_rows (h : S1024x1024.Reduces [0] S1024) (r q : Fin 1024) : h.lift (ix1 r) q = ix2 q r :=
  funext fun a => Fin.ext (by
    match a with
    | ⟨0, _⟩ => rfl
    | ⟨1, _⟩ => rfl)

/-- The maximum down the rows of a 1024 × 1024 block, from −∞, at column r. -/
theorem max_rows_apply (x : FVec Ideal S1024x1024 .f32) (h : S1024x1024.Reduces [0] S1024) (hφ : FKind.Formats .f32)
    (hacc : (0xFF800000#32 : BitVec (FTy.bits .f32)) = FKind.maximumf.neutral .f32 hφ) (r : Fin 1024) :
    multiReduction (F := Ideal) .maximumf [0] S1024 x 0xFF800000#32 h hφ hacc (ix1 r)
      = Finset.univ.sup fun q : Fin 1024 => x (ix2 q r) := by
  refine (Ideal.multiReduction_maximumf_single x _ h hφ hacc (ix1 r)).trans ?_
  show Finset.fold max (Ideal.ofBits .f32 0xFF800000#32) (fun q : Fin 1024 => x (h.lift (ix1 r) q)) Finset.univ = _
  rw [ofBits_neg_inf, fold_max_bot]
  exact congrArg (Finset.sup Finset.univ) (funext fun q => congrArg x (lift_rows h r q))

/-- The sum down the rows of a 1024 × 1024 block, at column r. -/
theorem sum_rows_apply (x : FVec Ideal S1024x1024 .f32) (h : S1024x1024.Reduces [0] S1024) (hφ : FKind.Formats .f32)
    (hacc : (0x00000000#32 : BitVec (FTy.bits .f32)) = FKind.add.neutral .f32 hφ) (r : Fin 1024) :
    multiReduction (F := Ideal) .add [0] S1024 x 0x00000000#32 h hφ hacc (ix1 r) = ∑ q : Fin 1024, x (ix2 q r) := by
  refine (Ideal.multiReduction_add_single x _ h hφ hacc (ix1 r)).trans ?_
  show ∑ q : Fin 1024, x (h.lift (ix1 r) q) = _
  exact Finset.sum_congr rfl fun q _ => congrArg x (lift_rows h r q)

/-! ## The payloads at one key -/

/-- The running maximum starts at −∞. -/
theorem k1_pay1_apply (r : Fin 1024) : k1_pay1 (F := Ideal) (ix2 (0 : Fin 1) r) = ⊥ := ofBits_neg_inf

/-- The running sum starts at 0. -/
theorem k1_pay2_apply (r : Fin 1024) : k1_pay2 (F := Ideal) (ix2 (0 : Fin 1) r) = 0 := Ideal.ofBits_zero_f32

/-- The new maximum: the larger of the old one and the chunk's largest score against key r. -/
theorem k1_pay4_apply (v0 v14 : Vec Ideal S1x1024x256 .bf16) (a6 : FVec Ideal S1x1024 .f32) (r : Fin 1024) :
    k1_pay4 v0 a6 v14 (ix2 (0 : Fin 1) r)
      = max (a6 (ix2 (0 : Fin 1) r))
          (Finset.univ.sup fun q : Fin 1024 => ∑ e : Fin 256, v14 (ix3 (0 : Fin 1) q e) * v0 (ix3 (0 : Fin 1) r e)) := by
  unfold k1_pay4
  refine (maximumf_apply _ _ _).trans ?_
  refine congrArg (max (a6 (ix2 (0 : Fin 1) r))) ?_
  refine (shapeCast_a_1a_apply _ _ (0 : Fin 1) r).trans ?_
  refine (max_rows_apply _ _ _ _ r).trans ?_
  exact congrArg (Finset.sup Finset.univ) (funext fun q => k1_pay3_apply v0 v14 q r)

/-- The new sum: the old one rescaled to the new maximum, plus the chunk's exponentials against it. -/
theorem k1_pay5_apply (v0 v14 : Vec Ideal S1x1024x256 .bf16) (a6 a7 : FVec Ideal S1x1024 .f32) (r : Fin 1024) :
    k1_pay5 v0 a6 a7 v14 (ix2 (0 : Fin 1) r)
      = a7 (ix2 (0 : Fin 1) r)
          * Ideal.exp (a6 (ix2 (0 : Fin 1) r) - max (a6 (ix2 (0 : Fin 1) r))
              (Finset.univ.sup fun q : Fin 1024 => ∑ e : Fin 256, v14 (ix3 (0 : Fin 1) q e) * v0 (ix3 (0 : Fin 1) r e)))
        + ∑ q : Fin 1024, Ideal.exp ((∑ e : Fin 256, v14 (ix3 (0 : Fin 1) q e) * v0 (ix3 (0 : Fin 1) r e))
            - max (a6 (ix2 (0 : Fin 1) r))
              (Finset.univ.sup fun q : Fin 1024 => ∑ e : Fin 256, v14 (ix3 (0 : Fin 1) q e) * v0 (ix3 (0 : Fin 1) r e))) := by
  unfold k1_pay5
  refine (addf_apply _ _ _).trans ?_
  refine congrArg₂ (· + ·) ?_ ?_
  · refine (mulf_apply _ _ _).trans ?_
    refine congrArg (a7 (ix2 (0 : Fin 1) r) * ·) ?_
    show Ideal.exp (a6 (ix2 (0 : Fin 1) r) - k1_pay4 v0 a6 v14 (ix2 (0 : Fin 1) r)) = _
    rw [k1_pay4_apply]
  · refine (shapeCast_a_1a_apply _ _ (0 : Fin 1) r).trans ?_
    refine (sum_rows_apply _ _ _ _ r).trans ?_
    refine Finset.sum_congr rfl fun q _ => ?_
    show Ideal.exp (k1_pay3 v0 v14 (ix2 q r)
        - broadcastTo S1024x1024 (k1_pay4 v0 a6 v14) broadcasts_S1x1024_S1024x1024 (ix2 q r)) = _
    rw [k1_pay3_apply, broadcastTo_1b_ab_apply, k1_pay4_apply]

/-- What is stored after the last chunk: maximum + log sum. -/
theorem k1_pay6_apply (m l : FVec Ideal S1x1024 .f32) (r : Fin 1024) :
    k1_pay6 m l (ix3 (0 : Fin 1) (0 : Fin 1) r) = m (ix2 (0 : Fin 1) r) + Ideal.log (l (ix2 (0 : Fin 1) r)) := by
  unfold k1_pay6
  refine (shapeCast_ab_1ab_apply _ _ (0 : Fin 1) (0 : Fin 1) r).trans ?_
  rfl

end Cert.KernelIdeal.Val

end
-- ==== Proof.ValStats.lean ====
/-
  The per-key statistics array after the second pallas_call, entry by entry, as the specification's function of the
  query and key arrays the region finds: each trip of the body's loop is one step of the running maximum and sum of a
  key's score column; after the eighth the stored number is the column's maximum plus the logarithm of its normaliser.
-/
import proofs.«421308_j15968688407014_3_alg».proof.Proof.FrStats
import proofs.«421308_j15968688407014_3_alg».proof.Proof.Spec
import proofs.«421308_j15968688407014_3_alg».proof.Proof.Online
import proofs.«421308_j15968688407014_3_alg».proof.Proof.Math
import proofs.«421308_j15968688407014_3_alg».proof.Proof.PayStats
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Val.Stats

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-! ## One trip of the loop, opened once -/

/-- A trip loads its chunk of the query buffer and yields the two payloads of the carried pair and the chunk: the
    trip's result is that pair of payloads. -/
theorem tripR_eq {F : FTy → Type} [FloatOps F] (c : Dev nD) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (v0 : Vec F S1x1024x256 .bf16) (X : BufTy.Contents (Elt F) arg2.view.ty) (k : Fin k1_t1_loop.trips) (acc : FVec F S1x1024 .f32 × FVec F S1x1024 .f32) :
    tripR_k1_t1 (F := F) Variants.none c none i arg2 harg2 arg3 harg3 arg4 harg4 v0 X k acc
      = (k1_pay4 v0 acc.1 (View.readAt (Elt F) arg2.view (Rect.unit (s := S1x8192x256) (k1_off1 k) S1x1024x256.size (k1_off1_inb k)).toLoadRect X),
         k1_pay5 v0 acc.1 acc.2 (View.readAt (Elt F) arg2.view (Rect.unit (s := S1x8192x256) (k1_off1 k) S1x1024x256.size (k1_off1_inb k)).toLoadRect X)) := by
  unfold tripR_k1_t1 trip_k1_t1
  dsimp only

/-- The printed index maps, decided over the grid: the query window's block is batch t / 8, the key and result
    windows' blocks are chunk t mod 8 of that batch. -/
theorem idx_facts1 : ∀ t : Fin cfg1.N,
    win1_0.index t (0 : Fin 3) = t.val / 8 ∧ win1_0.index t (1 : Fin 3) = 0 ∧ win1_0.index t (2 : Fin 3) = 0
  ∧ win1_1.index t (0 : Fin 3) = t.val / 8 ∧ win1_1.index t (1 : Fin 3) = t.val % 8 ∧ win1_1.index t (2 : Fin 3) = 0
  ∧ win1_2.index t (0 : Fin 3) = t.val / 8 ∧ win1_2.index t (1 : Fin 3) = 0 ∧ win1_2.index t (2 : Fin 3) = t.val % 8 :=
  (by decide +kernel : ∀ t : Fin grid1.N, _)

/-- The query block at point t is batch t / 8 of the query array. -/
theorem qblk_apply (c : Dev nD) (t : Fin cfg1.N) (b : Fin 2) (hb : b.val = t.val / 8) (n : Fin 8192) (e : Fin 256) :
    (iblk1 V c 0 t : Vec Ideal S1x8192x256 .bf16) (ix3 0 n e) = (V c main_v7_0 : S2x8192x256.Idx → EReal) (ix3 b n e) := by
  obtain ⟨e0, e1, e2, -⟩ := idx_facts1 t
  unfold iblk1
  rw [View.read_apply]
  show V c main_v7_0 _ = V c main_v7_0 _
  congr 1
  funext a
  apply Fin.ext
  match a with
  | ⟨0, _⟩ => show win1_0.index t 0 * 1 + 1 * 0 = b.val; rw [e0, hb]; omega
  | ⟨1, _⟩ => show win1_0.index t 1 * 8192 + 1 * n.val = n.val; rw [e1]; omega
  | ⟨2, _⟩ => show win1_0.index t 2 * 256 + 1 * e.val = e.val; rw [e2]; omega

/-- The loop makes eight trips. -/
theorem trips1 : k1_t1_loop.trips = 8 := by decide +kernel

theorem hz3 : (![0, 0, 0] : Fin 3 → Nat) = fun _ => 0 := funext fun a => by fin_cases a <;> rfl

/-- Trip k's chunk of a query buffer that reads x0 is rows 1024 k … 1024 k + 1023 of x0. -/
theorem chunk_apply (arg2 : Memref sig .tc .vmem S1x8192x256 .bf16) (harg2 : arg2.IsWhole) (x0 : Vec Ideal S1x8192x256 .bf16)
    (k : Fin k1_t1_loop.trips) (q : Fin 1024) (e : Fin 256) (n : Fin 8192) (hn : n.val = 1024 * k.val + q.val) :
    View.readAt (Elt Ideal) arg2.view (Rect.unit (s := S1x8192x256) (k1_off1 k) S1x1024x256.size (k1_off1_inb k)).toLoadRect (harg2.unread x0) (ix3 0 q e)
      = x0 (ix3 0 n e) := by
  rw [View.readAt_eq_ld, harg2.read_unread]
  show x0 _ = x0 _
  congr 1
  funext a
  apply Fin.ext
  have hoff := k1_off1_eq k
  match a with
  | ⟨0, _⟩ => simp only [LoadRect.idx_apply, Rect.emb_apply, Rect.off_unit, Rect.stride_unit, Nat.one_mul, hoff]; rfl
  | ⟨1, _⟩ => simp only [LoadRect.idx_apply, Rect.emb_apply, Rect.off_unit, Rect.stride_unit, Nat.one_mul, hoff]; show 1024 * k.val + q.val = n.val; omega
  | ⟨2, _⟩ => simp only [LoadRect.idx_apply, Rect.emb_apply, Rect.off_unit, Rect.stride_unit, Nat.one_mul, hoff]; show 0 + e.val = e.val; omega

/-! ## The carried pair at a lane, by induction on the trips -/

/-- Key r of the key block x1 against every query of the query block x0: the column of scores. -/
def col (x0 : Vec Ideal S1x8192x256 .bf16) (x1 : Vec Ideal S1x1024x256 .bf16) (r : Fin 1024) : Fin 8192 → EReal :=
  fun n => ∑ e : Fin 256, x0 (ix3 0 n e) * x1 (ix3 0 r e)

/-- Before trip n the carried pair at lane r is the running maximum and sum of key r's score column over the
    first n chunks of queries: each trip is one step of the running pair. -/
theorem carried_lane (c : Dev nD) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec Ideal S1x8192x256 .bf16) (x1 : Vec Ideal S1x1024x256 .bf16) (r : Fin 1024) (n : ℕ) (hn : n ≤ 8) :
    ((st_k1_t1 (F := Ideal) Variants.none c none i arg2 harg2 arg3 harg3 arg4 harg4 (View.ld x1 r1_k) (harg2.unread x0) (k1_pay1, k1_pay2) n).1 (ix2 0 r),
     (st_k1_t1 (F := Ideal) Variants.none c none i arg2 harg2 arg3 harg3 arg4 harg4 (View.ld x1 r1_k) (harg2.unread x0) (k1_pay1, k1_pay2) n).2 (ix2 0 r))
      = Cert.Attn.online (col x0 x1 r) n := by
  induction n with
  | zero =>
    rw [st_k1_t1_zero]
    show ((k1_pay1 (F := Ideal)) (ix2 0 r), (k1_pay2 (F := Ideal)) (ix2 0 r)) = ((⊥ : EReal), (0 : EReal))
    rw [k1_pay1_apply, k1_pay2_apply]
  | succ n ih =>
    have hn8 : n < 8 := by omega
    have hk : n < k1_t1_loop.trips := by rw [trips1]; exact hn8
    have ih' := ih (by omega)
    have hsucc := st_k1_t1_succ (F := Ideal) Variants.none c none i arg2 harg2 arg3 harg3 arg4 harg4 (View.ld x1 r1_k) (harg2.unread x0) (k1_pay1, k1_pay2) ⟨n, hk⟩
    have hv0 : ∀ e : Fin 256, (View.ld x1 r1_k : Vec Ideal S1x1024x256 .bf16) (ix3 0 r e) = x1 (ix3 0 r e) := fun e => by
      rw [View.ld_unit_zero (S := S1x1024x256) hz3]
    have hsc : ∀ q : Fin 1024, (∑ e : Fin 256, View.readAt (Elt Ideal) arg2.view (Rect.unit (s := S1x8192x256) (k1_off1 ⟨n, hk⟩) S1x1024x256.size (k1_off1_inb ⟨n, hk⟩)).toLoadRect (harg2.unread x0) (ix3 0 q e) * (View.ld x1 r1_k : Vec Ideal S1x1024x256 .bf16) (ix3 0 r e))
        = col x0 x1 r (Cert.Attn.chunkIx ⟨n, hn8⟩ q) := fun q => by
      unfold col
      refine Finset.sum_congr rfl fun e _ => ?_
      rw [hv0, chunk_apply arg2 harg2 x0 ⟨n, hk⟩ q e (Cert.Attn.chunkIx ⟨n, hn8⟩ q) rfl]
    show ((st_k1_t1 (F := Ideal) Variants.none c none i arg2 harg2 arg3 harg3 arg4 harg4 (View.ld x1 r1_k) (harg2.unread x0) (k1_pay1, k1_pay2) ((⟨n, hk⟩ : Fin k1_t1_loop.trips).val + 1)).1 (ix2 0 r), _) = _
    rw [hsucc, tripR_eq]
    dsimp only
    rw [k1_pay4_apply, k1_pay5_apply]
    simp only [hsc]
    rw [Cert.Attn.online, dif_pos hn8, ← ih']
    rfl

/-! ## What the one store leaves at a lane -/

/-- The stored block at lane r: the column's maximum plus the logarithm of its normaliser, for a column of real
    scores (the running pair after the eighth chunk carries exactly these). -/
theorem out_lane (c : Dev nD) (i : grid1.Coords) (arg2 : Memref sig .tc .vmem S1x8192x256 .bf16) (harg2 : arg2.IsWhole) (arg3 : Memref sig .tc .vmem S1x1024x256 .bf16) (harg3 : arg3.IsWhole) (arg4 : Memref sig .tc .vmem S1x1x1024 .f32) (harg4 : arg4.IsWhole)
    (x0 : Vec Ideal S1x8192x256 .bf16) (x1 : Vec Ideal S1x1024x256 .bf16) (r : Fin 1024)
    (hs : ∀ n, ∃ ρ : ℝ, col x0 x1 r n = (ρ : EReal)) :
    out1_2 (F := Ideal) c i arg2 harg2 arg3 harg3 arg4 harg4 x0 x1 (ix3 (0 : Fin 1) (0 : Fin 1) r)
      = (Finset.univ.sup (col x0 x1 r)) + Ideal.log (∑ n : Fin 8192, Ideal.exp (col x0 x1 r n - Finset.univ.sup (col x0 x1 r))) := by
  have h8 := carried_lane c i arg2 harg2 arg3 harg3 arg4 harg4 x0 x1 r 8 (le_refl 8)
  simp only [Prod.ext_iff] at h8
  unfold out1_2
  rw [View.canon_unit_zero hz3, k1_pay6_apply]
  unfold carried1
  rw [trips1, h8.1, h8.2]
  exact Cert.Attn.online_final _ hs

/-! ## From blocks to the array -/

/-- The key block at point t is rows 1024 (t mod 8) … of batch t / 8 of the key array. -/
theorem kblk_apply (c : Dev nD) (t : Fin cfg1.N) (b : Fin 2) (hb : b.val = t.val / 8) (j : Fin 8192) (r : Fin 1024)
    (hj : j.val = 1024 * (t.val % 8) + r.val) (e : Fin 256) :
    (iblk1 V c 1 t : Vec Ideal S1x1024x256 .bf16) (ix3 0 r e) = (V c main_v7_1 : S2x8192x256.Idx → EReal) (ix3 b j e) := by
  obtain ⟨-, -, -, e3, e4, e5, -⟩ := idx_facts1 t
  unfold iblk1
  rw [View.read_apply]
  show V c main_v7_1 _ = V c main_v7_1 _
  congr 1
  funext a
  apply Fin.ext
  match a with
  | ⟨0, _⟩ => show win1_1.index t 0 * 1 + 1 * 0 = b.val; rw [e3, hb]; omega
  | ⟨1, _⟩ => show win1_1.index t 1 * 1024 + 1 * r.val = j.val; rw [e4, hj]; omega
  | ⟨2, _⟩ => show win1_1.index t 2 * 256 + 1 * e.val = e.val; rw [e5]; omega

/-- The statistics array the region leaves: for batch b and key j, the maximum of key j's score column plus the
    logarithm of its normaliser, the scores taken between the two arrays as the region finds them. -/
abbrev Gstat (c : Dev nD) : S2x1x8192.Idx → EReal := fun i =>
  Cert.Attn.colStat (Cert.Attn.score (fun b n e => V c main_v7_0 (ix3 b n e)) (fun b n e => V c main_v7_1 (ix3 b n e))) (i 0) (i 2)

/-- What point t writes back is its block of that array. -/
theorem flushed_eq (c : Dev nD) (hq : ∀ i, ∃ r : ℝ, V c main_v7_0 i = (r : EReal)) (hk : ∀ i, ∃ r : ℝ, V c main_v7_1 i = (r : EReal))
    (t : Fin cfg1.N) :
    (dat1 (F := Ideal) V c).flushed 2 t = ((cfg1.win 2).blk t).view.read (Elt Ideal) (Gstat V c) := by
  have ht : t.val < 16 := Nat.lt_of_lt_of_eq t.isLt N_1
  obtain ⟨-, -, -, -, -, -, e6, e7, e8⟩ := idx_facts1 t
  show (cfg1.win 2).cut (grid1.coords t) ((dat1 V c).after 2 t) = _
  rw [after1_2]
  funext y
  obtain ⟨u, z, r, rfl⟩ : ∃ (u : Fin 1) (z : Fin 1) (r : Fin 1024), y = ix3 u z r := ⟨y 0, y 1, y 2, eq_ix3 y⟩
  obtain rfl : u = 0 := Fin.ext (by omega)
  obtain rfl : z = 0 := Fin.ext (by omega)
  let b' : Fin 2 := ⟨t.val / 8, by omega⟩
  let j' : Fin 8192 := ⟨1024 * (t.val % 8) + r.val, by omega⟩
  have hcol : col (iblk1 V c 0 t) (iblk1 V c 1 t) r
      = fun n => Cert.Attn.score (fun b n e => V c main_v7_0 (ix3 b n e)) (fun b n e => V c main_v7_1 (ix3 b n e)) b' n j' := by
    funext n
    unfold col Cert.Attn.score
    refine Finset.sum_congr rfl fun e _ => ?_
    rw [qblk_apply V c t b' rfl n e, kblk_apply V c t b' rfl j' r rfl e]
  have hs : ∀ n, ∃ ρ : ℝ, col (iblk1 V c 0 t) (iblk1 V c 1 t) r n = (ρ : EReal) := fun n => by
    rw [hcol]
    exact Cert.Attn.score_isReal _ _ (fun b n e => hq (ix3 b n e)) (fun b n e => hk (ix3 b n e)) b' n j'
  have hemb : ((cfg1.win 2).blk t).view.emb (ix3 (0 : Fin 1) (0 : Fin 1) r) = (ix3 b' 0 j' : S2x1x8192.Idx) := by
    funext a
    apply Fin.ext
    match a with
    | ⟨0, _⟩ => show win1_2.index t 0 * 1 + 1 * 0 = t.val / 8; rw [e6]; omega
    | ⟨1, _⟩ => show win1_2.index t 1 * 1 + 1 * 0 = 0; rw [e7]
    | ⟨2, _⟩ => show win1_2.index t 2 * 1024 + 1 * r.val = 1024 * (t.val % 8) + r.val; rw [e8]; omega
  refine (out_lane c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (iblk1 V c 0 t) (iblk1 V c 1 t) r hs).trans ?_
  rw [View.read_apply, hemb, hcol]
  rfl

/-- An index of the array is in point t's block iff each coordinate is in the block's range on its axis. -/
theorem mem_blk (t : Fin cfg1.N) (i : S2x1x8192.Idx) :
    i ∈ ((cfg1.win 2).blk t).view.set ↔ ∀ a : Fin 3, win1_2.index t a * S1x1x1024.size a ≤ (i a).val ∧ (i a).val < win1_2.index t a * S1x1x1024.size a + S1x1x1024.size a := by
  show i ∈ ((View.whole main_v8).slice (win1_2.rect t)).set ↔ _
  rw [View.set_slice_whole, Rect.mem_set_unit]
  exact Iff.rfl

/-- Every entry (b, 0, j) of the array lies in the block of point 8 b + j / 1024, which is written back. -/
theorem cover (i : S2x1x8192.Idx) : ∃ t : Fin cfg1.N, (cfg1.win 2).flush t = true ∧ i ∈ ((cfg1.win 2).blk t).view.set := by
  have h0 : (i 0).val < 2 := (i 0).isLt
  have h1 : (i 1).val < 1 := (i 1).isLt
  have h2 : (i 2).val < 8192 := (i 2).isLt
  have hN : cfg1.N = 16 := N_1
  refine ⟨⟨8 * (i 0).val + (i 2).val / 1024, by rw [hN]; omega⟩, flush1_2 _, ?_⟩
  rw [mem_blk]
  obtain ⟨-, -, -, -, -, -, e6, e7, e8⟩ := idx_facts1 ⟨8 * (i 0).val + (i 2).val / 1024, by rw [hN]; omega⟩
  intro a
  match a with
  | ⟨0, _⟩ => show win1_2.index _ 0 * 1 ≤ (i 0).val ∧ (i 0).val < win1_2.index _ 0 * 1 + 1; rw [e6]; show (8 * (i 0).val + (i 2).val / 1024) / 8 * 1 ≤ (i 0).val ∧ (i 0).val < (8 * (i 0).val + (i 2).val / 1024) / 8 * 1 + 1; omega
  | ⟨1, _⟩ => show win1_2.index _ 1 * 1 ≤ (i 1).val ∧ (i 1).val < win1_2.index _ 1 * 1 + 1; rw [e7]; omega
  | ⟨2, _⟩ => show win1_2.index _ 2 * 1024 ≤ (i 2).val ∧ (i 2).val < win1_2.index _ 2 * 1024 + 1024; rw [e8]; show (8 * (i 0).val + (i 2).val / 1024) % 8 * 1024 ≤ (i 2).val ∧ (i 2).val < (8 * (i 0).val + (i 2).val / 1024) % 8 * 1024 + 1024; omega

/-- The statistics array after the region. -/
theorem final_stats (c : Dev nD) (hq : ∀ i, ∃ r : ℝ, V c main_v7_0 i = (r : EReal)) (hk : ∀ i, ∃ r : ℝ, V c main_v7_1 i = (r : EReal)) :
    (dat1 (F := Ideal) V c).arrAt 2 cfg1.N = Gstat V c :=
  (dat1 (F := Ideal) V c).arrAt_eq_of_cover 2 (Gstat V c) (fun t _ => flushed_eq V c hq hk t) cover

/-- Entry by entry: the statistics array holds the specification's per-key number. -/
theorem arr1_2 (c : Dev nD) (hq : ∀ i, ∃ r : ℝ, V c main_v7_0 i = (r : EReal)) (hk : ∀ i, ∃ r : ℝ, V c main_v7_1 i = (r : EReal))
    (b : Fin 2) (j : Fin 8192) :
    (dat1 (F := Ideal) V c).arrAt 2 cfg1.N (ix3 b 0 j)
      = Cert.Attn.colStat (Cert.Attn.score (fun b n e => V c main_v7_0 (ix3 b n e)) (fun b n e => V c main_v7_1 (ix3 b n e))) b j := by
  rw [final_stats V c hq hk]

end Cert.KernelIdeal.Val.Stats
end
-- ==== Proof.PayOut.lean ====
/-
  The output kernel's payloads read at one entry, at the ideal values: the accumulator's start is 0; one trip adds,
  for each key k of the chunk, exp (⟨query r, key k⟩ − stat k) · value k d to the accumulator; the stored block is the
  accumulator under a leading unit axis.
-/
import proofs.«421308_j15968688407014_3_alg».proof.Proof.Gen.KernelIdeal.Skeleton
import proofs.«421308_j15968688407014_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## The score product: queries [1024, 256] against keys [1024, 256], contracting the feature axis of both -/

theorem lhs_qk_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_qk_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_qk_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_qk_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- Entry (r, k) of the score product into the zero constant is the sum over features of query r times key k. -/
theorem qk_apply (A B : FVec Ideal S1024x256 .bf16) (r k : Fin 1024) :
    matmul dot_S1024x256_S1024x256_S1024x1024_1_1_0_0_n_n none A B (constant (F := Ideal) S1024x1024 .f32 0x00000000#32) (ix2 r k)
      = ∑ e : Fin 256, A (ix2 r e) * B (ix2 k e) := by
  show FloatOps.matmul _ _ _ _ _ _ = _
  rw [Ideal.matmul_constant_zero_apply, ← Equiv.sum_comp (contrEquiv1 dot_S1024x256_S1024x256_S1024x1024_1_1_0_0_n_n 256 rfl rfl).symm]
  refine Finset.sum_congr rfl fun e _ => ?_
  have he := contrEquiv1_symm_val dot_S1024x256_S1024x256_S1024x1024_1_1_0_0_n_n 256 rfl rfl e
  have el : dot_S1024x256_S1024x256_S1024x1024_1_1_0_0_n_n.lhsIdx (ix2 r k) ((contrEquiv1 dot_S1024x256_S1024x256_S1024x1024_1_1_0_0_n_n 256 rfl rfl).symm e) = ix2 r e := funext fun a => Fin.ext (by
    match a with
    | ⟨0, _⟩ => exact lhs_qk_0 _ _
    | ⟨1, _⟩ => exact (lhs_qk_1 _ _).trans he)
  have er : dot_S1024x256_S1024x256_S1024x1024_1_1_0_0_n_n.rhsIdx (ix2 r k) ((contrEquiv1 dot_S1024x256_S1024x256_S1024x1024_1_1_0_0_n_n 256 rfl rfl).symm e) = ix2 k e := funext fun a => Fin.ext (by
    match a with
    | ⟨0, _⟩ => exact rhs_qk_0 _ _
    | ⟨1, _⟩ => exact (rhs_qk_1 _ _).trans he)
  rw [el, er]

/-! ## The weighted sum: weights [1024, 1024] against values [1024, 256], contracting the key axis -/

theorem lhs_pv_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_pv_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_pv_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_pv_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- Entry (r, d) of the weighted sum into the zero constant is the sum over keys of weight (r, k) times value (k, d). -/
theorem pv_apply (P : FVec Ideal S1024x1024 .bf16) (V : FVec Ideal S1024x256 .bf16) (r : Fin 1024) (d : Fin 256) :
    matmul dot_S1024x1024_S1024x256_S1024x256_1_0_0_1_n_n none P V (constant (F := Ideal) S1024x256 .f32 0x00000000#32) (ix2 r d)
      = ∑ k : Fin 1024, P (ix2 r k) * V (ix2 k d) := by
  show FloatOps.matmul _ _ _ _ _ _ = _
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r d) ((contrEquiv1 dot_S1024x1024_S1024x256_S1024x256_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S1024x256_S1024x256_1_0_0_1_n_n.rhsIdx (ix2 r d) ((contrEquiv1 dot_S1024x1024_S1024x256_S1024x256_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-! ## The payloads -/

/-- An exponential at an index is the exponential of the element. -/
theorem exp_apply {s : Shape} {φ : FTy} (a : FVec Ideal s φ) (i : s.Idx) : exp a i = Ideal.exp (a i) := rfl

/-- The accumulator starts at 0. -/
theorem k2_pay1_apply (r : Fin 1024) (d : Fin 256) : k2_pay1 (F := Ideal) (ix2 r d) = 0 := by
  unfold k2_pay1
  show Ideal.ofBits .f32 0x00000000#32 = 0
  exact Ideal.ofBits_zero_f32

/-- One trip: the accumulator plus, over the chunk's keys, exp (score − stat) times the value. -/
theorem k2_pay2_apply (v0 v11 v14 : Vec Ideal S1x1024x256 .bf16) (v17 : Vec Ideal S1x1x1024 .f32)
    (acc : FVec Ideal S1024x256 .f32) (r : Fin 1024) (d : Fin 256) :
    k2_pay2 v0 acc v11 v14 v17 (ix2 r d)
      = acc (ix2 r d) + ∑ k : Fin 1024,
          Ideal.exp ((∑ e : Fin 256, v0 (ix3 0 r e) * v11 (ix3 0 k e)) - v17 (ix3 0 0 k)) * v14 (ix3 0 k d) := by
  unfold k2_pay2
  rw [addf_apply, pv_apply]
  refine congrArg (fun t => acc (ix2 r d) + t) (Finset.sum_congr rfl fun k _ => ?_)
  rw [truncf_apply, exp_apply, subf_apply, qk_apply, broadcastTo_1b_ab_apply, shapeCast_1ab_ab_apply, shapeCast_1ab_ab_apply]
  refine congrArg (fun t => Ideal.exp (t - v17 (ix3 0 0 k)) * v14 (ix3 0 k d)) (Finset.sum_congr rfl fun e _ => ?_)
  rw [shapeCast_1ab_ab_apply, shapeCast_1ab_ab_apply]

/-- The stored block is the accumulator under a leading unit axis. -/
theorem k2_pay3_apply (v4 : FVec Ideal S1024x256 .f32) (r : Fin 1024) (d : Fin 256) :
    k2_pay3 v4 (ix3 0 r d) = v4 (ix2 r d) := by
  unfold k2_pay3
  exact shapeCast_ab_1ab_apply v4 _ 0 r d

end Cert.KernelIdeal.Val

end
-- ==== Proof.ValOut.lean ====
/-
  The third pallas_call's result array, entry by entry, as the specification's function of the arrays it finds.

  Each grid point (batch b, row block) holds 1024 query rows and all 8192 keys, values and per-key statistics of batch
  b.  Its loop walks the keys in eight chunks of 1024 and adds, to a [1024, 256] accumulator started at zero, the
  chunk's terms exp (q_r · k_j − stat_j) · v_j[d]; sums in the extended reals regroup freely, so after the eighth
  chunk entry (r, d) is the sum over all keys.  The point writes that block back, and the sixteen blocks tile the array.
-/
import proofs.«421308_j15968688407014_3_alg».proof.Proof.FrOut
import proofs.«421308_j15968688407014_3_alg».proof.Proof.Spec
import proofs.«421308_j15968688407014_3_alg».proof.Proof.Online
import proofs.«421308_j15968688407014_3_alg».proof.Proof.PayOut
import Idealize.ShloMosaic.Lib.Pipeline.Value
import Idealize.ShloMosaic.Lib.ValueIdx
import Idealize.ShloMosaic.Lib.Tactic

set_option maxRecDepth 16384

noncomputable section

namespace Cert.KernelIdeal.Val.Out

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)
open Cert.Attn
open scoped BigOperators

/-! ## One trip of the loop -/

/-- The loop runs eight trips. -/
theorem trips_eq : k2_t1_loop.trips = 8 := by decide

section Generic
variable {F : FTy → Type} [FloatOps F]

/-- What one trip yields: the payload of the carried accumulator and of the three chunks it loads, keys and values at
    rows 1024 k … 1024 k + 1023 of their buffers and the statistics at the same columns of theirs. -/
theorem tripR_eq (𝒱 : Variants) (c : Dev nD) (bd : Option 𝒱.V) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole) (v0 : Vec F S1x1024x256 .bf16)
    (X3 : BufTy.Contents (Elt F) arg3.view.ty) (X4 : BufTy.Contents (Elt F) arg4.view.ty) (X5 : BufTy.Contents (Elt F) arg5.view.ty)
    (k : Fin k2_t1_loop.trips) (acc : FVec F S1024x256 .f32) :
    tripR_k2_t1 (F := F) 𝒱 c bd i arg2 harg2 arg3 harg3 arg4 harg4 arg5 harg5 arg6 harg6 v0 X3 X4 X5 k acc
      = k2_pay2 v0 acc
          (View.ld (arg3.view.read (Elt F) X3) (Rect.unit (s := S1x8192x256) (k2_off1 k) S1x1024x256.size (k2_off1_inb k)))
          (View.ld (arg4.view.read (Elt F) X4) (Rect.unit (s := S1x8192x256) (k2_off1 k) S1x1024x256.size (k2_off1_inb k)))
          (View.ld (arg5.view.read (Elt F) X5) (Rect.unit (s := S1x1x8192) (k2_off2 k) S1x1x1024.size (k2_off2_inb k))) := by
  unfold tripR_k2_t1 trip_k2_t1
  rfl

/-- Row q of trip k's chunk of a [1, 8192, 256] buffer is row 1024 k + q of the buffer. -/
theorem ld_rows (X : Vec F S1x8192x256 .bf16) (k : Fin k2_t1_loop.trips) (q : Fin 1024) (e : Fin 256) (j : Fin 8192)
    (hj : j.val = 1024 * k.val + q.val) :
    View.ld X (Rect.unit (s := S1x8192x256) (k2_off1 k) S1x1024x256.size (k2_off1_inb k)) (ix3 (0 : Fin 1) q e) = X (ix3 (0 : Fin 1) j e) := by
  show X ((Rect.unit (s := S1x8192x256) (k2_off1 k) S1x1024x256.size (k2_off1_inb k)).idx (ix3 (0 : Fin 1) q e)) = _
  congr 1
  funext a; apply Fin.ext
  match a with
  | ⟨0, _⟩ => show (k2_off1 k) 0 + 1 * 0 = 0; rw [k2_off1_eq]; rfl
  | ⟨1, _⟩ => show (k2_off1 k) 1 + 1 * q.val = j.val; rw [k2_off1_eq]; show 1024 * k.val + 1 * q.val = j.val; omega
  | ⟨2, _⟩ => show (k2_off1 k) 2 + 1 * e.val = e.val; rw [k2_off1_eq]; show 0 + 1 * e.val = e.val; omega

/-- Column q of trip k's chunk of the [1, 1, 8192] statistics is column 1024 k + q. -/
theorem ld_cols (X : Vec F S1x1x8192 .f32) (k : Fin k2_t1_loop.trips) (q : Fin 1024) (j : Fin 8192)
    (hj : j.val = 1024 * k.val + q.val) :
    View.ld X (Rect.unit (s := S1x1x8192) (k2_off2 k) S1x1x1024.size (k2_off2_inb k)) (ix3 (0 : Fin 1) (0 : Fin 1) q) = X (ix3 (0 : Fin 1) (0 : Fin 1) j) := by
  show X ((Rect.unit (s := S1x1x8192) (k2_off2 k) S1x1x1024.size (k2_off2_inb k)).idx (ix3 (0 : Fin 1) (0 : Fin 1) q)) = _
  congr 1
  funext a; apply Fin.ext
  match a with
  | ⟨0, _⟩ => show (k2_off2 k) 0 + 1 * 0 = 0; rw [k2_off2_eq]; rfl
  | ⟨1, _⟩ => show (k2_off2 k) 1 + 1 * 0 = 0; rw [k2_off2_eq]; rfl
  | ⟨2, _⟩ => show (k2_off2 k) 2 + 1 * q.val = j.val; rw [k2_off2_eq]; show 1024 * k.val + 1 * q.val = j.val; omega

end Generic

/-! ## The accumulator after the trips -/

/-- Key j's term of entry (r, d) of the result, from what the four input buffers read: exp (q_r · k_j − stat_j) · v_j[d]. -/
def term (x0 : Vec Ideal S1x1024x256 .bf16) (x1 x2 : Vec Ideal S1x8192x256 .bf16) (x3 : Vec Ideal S1x1x8192 .f32) (r : Fin 1024) (d : Fin 256) (j : Fin 8192) : EReal :=
  Ideal.exp ((∑ e : Fin 256, x0 (ix3 (0 : Fin 1) r e) * x1 (ix3 (0 : Fin 1) j e)) - x3 (ix3 (0 : Fin 1) (0 : Fin 1) j)) * x2 (ix3 (0 : Fin 1) j d)

theorem hz3 : (![0, 0, 0] : Fin 3 → Nat) = fun _ => 0 := funext fun a => by fin_cases a <;> rfl

/-- After n trips the accumulator's entry (r, d) is the sum of the terms of the first n chunks of keys: each trip adds
    its chunk's 1024 terms to what it is handed, and the first is handed zero. -/
theorem st_apply (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole) (x0 : Vec Ideal S1x1024x256 .bf16) (x1 x2 : Vec Ideal S1x8192x256 .bf16) (x3 : Vec Ideal S1x1x8192 .f32) (n : ℕ) (hn : n ≤ 8) (r : Fin 1024) (d : Fin 256) :
    st_k2_t1 (F := Ideal) Variants.none c none i arg2 harg2 arg3 harg3 arg4 harg4 arg5 harg5 arg6 harg6 (View.ld x0 r2_0) (harg3.unread x1) (harg4.unread x2) (harg5.unread x3) (k2_pay1 (F := Ideal)) n (ix2 r d)
      = (Finset.range n).sum (fun u => if h : u < 8 then ∑ q : Fin 1024, term x0 x1 x2 x3 r d (chunkIx ⟨u, h⟩ q) else 0) := by
  induction n with
  | zero =>
    rw [Finset.range_zero, Finset.sum_empty]
    exact k2_pay1_apply r d
  | succ n ih =>
    have h : n < 8 := by omega
    have hk : n < k2_t1_loop.trips := by rw [trips_eq]; exact h
    rw [Finset.sum_range_succ, dif_pos h, ← ih (by omega)]
    refine (congrFun (st_k2_t1_succ (F := Ideal) Variants.none c none i arg2 harg2 arg3 harg3 arg4 harg4 arg5 harg5 arg6 harg6 (View.ld x0 r2_0) (harg3.unread x1) (harg4.unread x2) (harg5.unread x3) (k2_pay1 (F := Ideal)) ⟨n, hk⟩) (ix2 r d)).trans ?_
    rw [tripR_eq, k2_pay2_apply, harg3.read_unread, harg4.read_unread, harg5.read_unread, View.ld_unit_zero (S := S1x1024x256) hz3]
    congr 1
    refine Finset.sum_congr rfl fun q _ => ?_
    unfold term
    rw [ld_cols x3 ⟨n, hk⟩ q (chunkIx ⟨n, h⟩ q) rfl, ld_rows x2 ⟨n, hk⟩ q d (chunkIx ⟨n, h⟩ q) rfl]
    congr 3
    refine Finset.sum_congr rfl fun e _ => ?_
    rw [ld_rows x1 ⟨n, hk⟩ q e (chunkIx ⟨n, h⟩ q) rfl]

/-- After all eight trips: the sum over all 8192 keys. -/
theorem acc2_apply (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole) (x0 : Vec Ideal S1x1024x256 .bf16) (x1 x2 : Vec Ideal S1x8192x256 .bf16) (x3 : Vec Ideal S1x1x8192 .f32) (r : Fin 1024) (d : Fin 256) :
    acc2 (F := Ideal) c i arg2 harg2 arg3 harg3 arg4 harg4 arg5 harg5 arg6 harg6 x0 x1 x2 x3 (ix2 r d) = ∑ j : Fin 8192, term x0 x1 x2 x3 r d j := by
  unfold acc2
  rw [trips_eq, st_apply c i arg2 harg2 arg3 harg3 arg4 harg4 arg5 harg5 arg6 harg6 x0 x1 x2 x3 8 (le_refl 8) r d, sum_chunks_upto (term x0 x1 x2 x3 r d) 8 (le_refl 8)]
  refine Finset.sum_congr rfl fun j _ => ?_
  rw [if_pos (by have := j.isLt; omega)]

/-- What the body leaves in the output's buffer, entry by entry. -/
theorem out2_4_apply (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole) (x0 : Vec Ideal S1x1024x256 .bf16) (x1 x2 : Vec Ideal S1x8192x256 .bf16) (x3 : Vec Ideal S1x1x8192 .f32) (r : Fin 1024) (d : Fin 256) :
    out2_4 (F := Ideal) c i arg2 harg2 arg3 harg3 arg4 harg4 arg5 harg5 arg6 harg6 x0 x1 x2 x3 (ix3 (0 : Fin 1) r d) = ∑ j : Fin 8192, term x0 x1 x2 x3 r d j := by
  unfold out2_4
  rw [View.canon_unit_zero hz3, k2_pay3_apply, acc2_apply]

/-- The same as the specification's result, once the four buffers are rows of the arrays: the query block row n of
    batch b, the other three the whole of batch b. -/
theorem out2_4_eq_outK (c : Dev nD) (i : grid2.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x1x8192 .f32) (harg5 : arg5.IsWhole) (arg6 : Memref sig .tc .vmem S1x1024x256 .f32) (harg6 : arg6.IsWhole) (x0 : Vec Ideal S1x1024x256 .bf16) (x1 x2 : Vec Ideal S1x8192x256 .bf16) (x3 : Vec Ideal S1x1x8192 .f32)
    (Q K VV : Fin 2 → Fin 8192 → Fin 256 → EReal) (MP : Fin 2 → Fin 8192 → EReal) (b : Fin 2) (n : Fin 8192) (r : Fin 1024) (d : Fin 256)
    (h0 : ∀ e, x0 (ix3 (0 : Fin 1) r e) = Q b n e) (h1 : ∀ j e, x1 (ix3 (0 : Fin 1) j e) = K b j e)
    (h2 : ∀ j d, x2 (ix3 (0 : Fin 1) j d) = VV b j d) (h3 : ∀ j, x3 (ix3 (0 : Fin 1) (0 : Fin 1) j) = MP b j) :
    out2_4 (F := Ideal) c i arg2 harg2 arg3 harg3 arg4 harg4 arg5 harg5 arg6 harg6 x0 x1 x2 x3 (ix3 (0 : Fin 1) r d) = outK (score Q K) MP VV b n d := by
  rw [out2_4_apply]
  unfold outK score term
  refine Finset.sum_congr rfl fun j _ => ?_
  rw [h2, h3]
  congr 3
  refine Finset.sum_congr rfl fun e _ => ?_
  rw [h0, h1]

/-! ## From blocks to the array -/

-- the TensorCore's buffer contents when the region is entered
variable (V : (c : Dev nD) → (b : Ref sig .tc) → Buf (Elt Ideal) ((c : Thread nD τ).loc b))

/-- The block index maps over the sixteen points: point t works on batch t / 8; the query and result windows are at
    row block t % 8 of it, the keys', values' and statistics' windows take the whole batch. -/
theorem idx_facts : ∀ t : Fin cfg2.N,
    win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 3) = t.val / 8 ∧ win2_2.index t (1 : Fin 3) = 0 ∧ win2_2.index t (2 : Fin 3) = 0
    ∧ win2_3.index t (0 : Fin 3) = t.val / 8 ∧ win2_3.index t (1 : Fin 3) = 0 ∧ win2_3.index t (2 : Fin 3) = 0
    ∧ win2_4.index t (0 : Fin 3) = t.val / 8 ∧ win2_4.index t (1 : Fin 3) = t.val % 8 ∧ win2_4.index t (2 : Fin 3) = 0 :=
  (by decide +kernel : ∀ t : Fin grid2.N, _)

/-- The query window's block at point t: row r is row 1024 (t % 8) + r of batch t / 8 of the query array. -/
theorem iblk2_0_apply (c : Dev nD) (t : Fin cfg2.N) (r : Fin 1024) (e : Fin 256) (b : Fin 2) (n : Fin 8192)
    (hb : b.val = t.val / 8) (hn : n.val = 1024 * (t.val % 8) + r.val) :
    (iblk2 V c 0 t : Vec Ideal S1x1024x256 .bf16) (ix3 (0 : Fin 1) r e) = (V c main_v7_0 : S2x8192x256.Idx → Elt Ideal .bf16) (ix3 b n e) := by
  obtain ⟨e00, e01, e02, -⟩ := idx_facts t
  unfold iblk2
  rw [View.read_apply]
  show V c main_v7_0 _ = V c main_v7_0 _
  congr 1
  funext a; apply Fin.ext
  match a with
  | ⟨0, _⟩ => show win2_0.index t (0 : Fin 3) * 1 + 1 * 0 = b.val; omega
  | ⟨1, _⟩ => show win2_0.index t (1 : Fin 3) * 1024 + 1 * r.val = n.val; omega
  | ⟨2, _⟩ => show win2_0.index t (2 : Fin 3) * 256 + 1 * e.val = e.val; omega

/-- The keys' window's block at point t is the whole of batch t / 8 of the key array. -/
theorem iblk2_1_apply (c : Dev nD) (t : Fin cfg2.N) (j : Fin 8192) (e : Fin 256) (b : Fin 2) (hb : b.val = t.val / 8) :
    (iblk2 V c 1 t : Vec Ideal S1x8192x256 .bf16) (ix3 (0 : Fin 1) j e) = (V c main_v7_1 : S2x8192x256.Idx → Elt Ideal .bf16) (ix3 b j e) := by
  obtain ⟨-, -, -, e10, e11, e12, -⟩ := idx_facts t
  unfold iblk2
  rw [View.read_apply]
  show V c main_v7_1 _ = V c main_v7_1 _
  congr 1
  funext a; apply Fin.ext
  match a with
  | ⟨0, _⟩ => show win2_1.index t (0 : Fin 3) * 1 + 1 * 0 = b.val; omega
  | ⟨1, _⟩ => show win2_1.index t (1 : Fin 3) * 8192 + 1 * j.val = j.val; omega
  | ⟨2, _⟩ => show win2_1.index t (2 : Fin 3) * 256 + 1 * e.val = e.val; omega

/-- The values' window's block at point t is the whole of batch t / 8 of the value array. -/
theorem iblk2_2_apply (c : Dev nD) (t : Fin cfg2.N) (j : Fin 8192) (d : Fin 256) (b : Fin 2) (hb : b.val = t.val / 8) :
    (iblk2 V c 2 t : Vec Ideal S1x8192x256 .bf16) (ix3 (0 : Fin 1) j d) = (V c main_v7_2 : S2x8192x256.Idx → Elt Ideal .bf16) (ix3 b j d) := by
  obtain ⟨-, -, -, -, -, -, e20, e21, e22, -⟩ := idx_facts t
  unfold iblk2
  rw [View.read_apply]
  show V c main_v7_2 _ = V c main_v7_2 _
  congr 1
  funext a; apply Fin.ext
  match a with
  | ⟨0, _⟩ => show win2_2.index t (0 : Fin 3) * 1 + 1 * 0 = b.val; omega
  | ⟨1, _⟩ => show win2_2.index t (1 : Fin 3) * 8192 + 1 * j.val = j.val; omega
  | ⟨2, _⟩ => show win2_2.index t (2 : Fin 3) * 256 + 1 * d.val = d.val; omega

/-- The statistics' window's block at point t is the whole row of batch t / 8 of the statistics array. -/
theorem iblk2_3_apply (c : Dev nD) (t : Fin cfg2.N) (j : Fin 8192) (b : Fin 2) (hb : b.val = t.val / 8) :
    (iblk2 V c 3 t : Vec Ideal S1x1x8192 .f32) (ix3 (0 : Fin 1) (0 : Fin 1) j) = (V c main_v8 : S2x1x8192.Idx → Elt Ideal .f32) (ix3 b (0 : Fin 1) j) := by
  obtain ⟨-, -, -, -, -, -, -, -, -, e30, e31, e32, -⟩ := idx_facts t
  unfold iblk2
  rw [View.read_apply]
  show V c main_v8 _ = V c main_v8 _
  congr 1
  funext a; apply Fin.ext
  match a with
  | ⟨0, _⟩ => show win2_3.index t (0 : Fin 3) * 1 + 1 * 0 = b.val; omega
  | ⟨1, _⟩ => show win2_3.index t (1 : Fin 3) * 1 + 1 * 0 = 0; omega
  | ⟨2, _⟩ => show win2_3.index t (2 : Fin 3) * 8192 + 1 * j.val = j.val; omega

/-- The result array as the specification's function of the arrays the region finds: queries, keys, statistics, values. -/
def G (c : Dev nD) : S2x8192x256.Idx → EReal := fun i =>
  outK (score (fun b n e => (V c main_v7_0 : S2x8192x256.Idx → Elt Ideal .bf16) (ix3 b n e)) (fun b n e => (V c main_v7_1 : S2x8192x256.Idx → Elt Ideal .bf16) (ix3 b n e)))
    (fun b j => (V c main_v8 : S2x1x8192.Idx → Elt Ideal .f32) (ix3 b (0 : Fin 1) j)) (fun b j d => (V c main_v7_2 : S2x8192x256.Idx → Elt Ideal .bf16) (ix3 b j d))
    (i 0) (i 1) (i 2)

/-- What point t writes back is block t of G: rows 1024 (t % 8) … of batch t / 8. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  obtain ⟨-, -, -, -, -, -, -, -, -, -, -, -, e40, e41, e42⟩ := idx_facts t
  have ht : t.val < 16 := Nat.lt_of_lt_of_eq t.isLt (show cfg2.N = 16 from N_2)
  funext (y : S1x1024x256.Idx)
  obtain ⟨u, r, d, rfl⟩ : ∃ (u : Fin 1) (r : Fin 1024) (d : Fin 256), y = ix3 u r d := ⟨y 0, y 1, y 2, eq_ix3 y⟩
  obtain rfl : u = 0 := Subsingleton.elim _ _
  let b : Fin 2 := ⟨t.val / 8, by omega⟩
  let n : Fin 8192 := ⟨1024 * (t.val % 8) + r.val, by have := r.isLt; omega⟩
  have hemb : ((cfg2.win 4).blk t).view.emb (ix3 (0 : Fin 1) r d) = (ix3 b n d : S2x8192x256.Idx) := by
    funext a; apply Fin.ext
    match a with
    | ⟨0, _⟩ => show win2_4.index t (0 : Fin 3) * 1 + 1 * 0 = t.val / 8; omega
    | ⟨1, _⟩ => show win2_4.index t (1 : Fin 3) * 1024 + 1 * r.val = 1024 * (t.val % 8) + r.val; omega
    | ⟨2, _⟩ => show win2_4.index t (2 : Fin 3) * 256 + 1 * d.val = d.val; omega
  rw [View.read_apply]
  show _ = G V c (((cfg2.win 4).blk t).view.emb (ix3 (0 : Fin 1) r d))
  rw [hemb]
  exact out2_4_eq_outK c _ _ _ _ _ _ _ _ _ _ _ (iblk2 V c 0 t) (iblk2 V c 1 t) (iblk2 V c 2 t) (iblk2 V c 3 t) _ _ _ _ b n r d
    (fun e => iblk2_0_apply V c t r e b n rfl rfl) (fun j e => iblk2_1_apply V c t j e b rfl)
    (fun j d => iblk2_2_apply V c t j d b rfl) (fun j => iblk2_3_apply V c t j b rfl)

/-- An index of the result array is in point t's block iff each coordinate is in the block's range on its axis. -/
theorem mem_blk (t : Fin cfg2.N) (i : S2x8192x256.Idx) :
    i ∈ ((cfg2.win 4).blk t).view.set ↔ ∀ a : Fin 3, win2_4.index t a * S1x1024x256.size a ≤ (i a).val ∧ (i a).val < win2_4.index t a * S1x1024x256.size a + S1x1024x256.size a := by
  show i ∈ ((View.whole main_v9).slice (win2_4.rect t)).set ↔ _
  rw [View.set_slice_whole, Rect.mem_set_unit]
  exact Iff.rfl

/-- Every entry of the result array is written back: row i of batch b by point 8 b + i / 1024. -/
theorem cover (i : S2x8192x256.Idx) : ∃ t : Fin cfg2.N, (cfg2.win 4).flush t = true ∧ i ∈ ((cfg2.win 4).blk t).view.set := by
  have h0 : (i 0).val < 2 := (i 0).isLt
  have h1 : (i 1).val < 8192 := (i 1).isLt
  have h2 : (i 2).val < 256 := (i 2).isLt
  have hN : cfg2.N = 16 := N_2
  refine ⟨⟨8 * (i 0).val + (i 1).val / 1024, by rw [hN]; omega⟩, flush2_4 _, ?_⟩
  rw [mem_blk]
  obtain ⟨-, -, -, -, -, -, -, -, -, -, -, -, e40, e41, e42⟩ := idx_facts ⟨8 * (i 0).val + (i 1).val / 1024, by rw [hN]; omega⟩
  intro a
  match a with
  | ⟨0, _⟩ =>
    show win2_4.index _ (0 : Fin 3) * 1 ≤ (i 0).val ∧ (i 0).val < win2_4.index _ (0 : Fin 3) * 1 + 1
    rw [e40]; show (8 * (i 0).val + (i 1).val / 1024) / 8 * 1 ≤ (i 0).val ∧ (i 0).val < (8 * (i 0).val + (i 1).val / 1024) / 8 * 1 + 1; omega
  | ⟨1, _⟩ =>
    show win2_4.index _ (1 : Fin 3) * 1024 ≤ (i 1).val ∧ (i 1).val < win2_4.index _ (1 : Fin 3) * 1024 + 1024
    rw [e41]; show (8 * (i 0).val + (i 1).val / 1024) % 8 * 1024 ≤ (i 1).val ∧ (i 1).val < (8 * (i 0).val + (i 1).val / 1024) % 8 * 1024 + 1024; omega
  | ⟨2, _⟩ =>
    show win2_4.index _ (2 : Fin 3) * 256 ≤ (i 2).val ∧ (i 2).val < win2_4.index _ (2 : Fin 3) * 256 + 256
    rw [e42]; omega

/-- THE RESULT ARRAY after the region: the specification's result of the arrays the region finds, entry by entry. -/
theorem arr2_4 (c : Dev nD) (b : Fin 2) (i : Fin 8192) (d : Fin 256) :
    (dat2 (F := Ideal) V c).arrAt 4 cfg2.N (ix3 b i d)
      = Cert.Attn.outK (Cert.Attn.score (fun b n e => V c main_v7_0 (ix3 b n e)) (fun b n e => V c main_v7_1 (ix3 b n e)))
          (fun b j => V c main_v8 (ix3 b 0 j)) (fun b j d => V c main_v7_2 (ix3 b j d)) b i d :=
  congrFun ((dat2 (F := Ideal) V c).arrAt_eq_of_cover 4 (G V c) (fun t _ => flushed_eq V c t) (cover)) (ix3 b i d)

end Cert.KernelIdeal.Val.Out

end
-- ==== Proof.HostW.lean ====
/-
  The block of weights the first kernel multiplies by, as the host operations before it leave it: the three weight
  arrays transposed, the query weight scaled by 1/16, laid side by side along the columns, then narrowed (the identity
  over the extended reals).
-/
import proofs.«421308_j15968688407014_3_alg».proof.Proof.Gen.KernelIdeal.Launch
import proofs.«421308_j15968688407014_3_alg».proof.Proof.Spec
import proofs.«421308_j15968688407014_3_alg».proof.Proof.Math
import Idealize.ShloMosaic.Lib.StableHlo.Run
import Idealize.ShloMosaic.Lib.Pipeline.Value
import Idealize.ShloMosaic.Lib.IdealHost

noncomputable section

namespace Cert.KernelIdeal.Val

open Idealize.ShloMosaic Idealize.ShloMosaic.ValueIdx Idealize.SL.Sem
open Cert.KernelIdeal

/-- A transposed square array at [r, q] is the array at [q, r]. -/
theorem transpose_at (w : FVec Ideal S256x256 .f32) (hT : S256x256.Transposes [1, 0] S256x256) (r q : Fin 256) :
    transpose S256x256 [1, 0] w hT (ix2 r q) = w (ix2 q r) := by
  refine transpose_apply [1, 0] w hT (ix2 r q) (ix2 q r) ?_
  intro b
  match b with
  | ⟨0, _⟩ => rfl
  | ⟨1, _⟩ => rfl

/-- An index of a piece agrees with the whole's index off the column axis. -/
theorem off_axis (r : Fin 256) (q : Fin 768) (q' : Fin 256) (hr : S256x256.rank = S256x768.rank) :
    ∀ b : Fin S256x256.rank, b.cast hr ≠ (1 : Fin S256x768.rank) → ((ix2 r q') b).val = ((ix2 r q) (b.cast hr)).val := by
  intro b hb
  match b with
  | ⟨0, _⟩ => rfl
  | ⟨1, _⟩ => exact absurd rfl hb

/-- Three square arrays side by side along the columns, at [r, q]: the piece that holds column q, at the column less the
    widths before it. -/
theorem cat3_at (x1 x2 x3 : S256x256.Idx → EReal) (hC : Shape.Concatenates [S256x256, S256x256, S256x256] S256x768 1)
    (r : Fin 256) (q : Fin 768) :
    concatenate S256x768 1 [⟨S256x256, x1⟩, ⟨S256x256, x2⟩, ⟨S256x256, x3⟩] hC (ix2 r q)
      = if h : q.val < 256 then x1 (ix2 r (⟨q.val, h⟩ : Fin 256))
        else if h2 : q.val < 512 then x2 (ix2 r (⟨q.val - 256, by omega⟩ : Fin 256))
        else x3 (ix2 r (⟨q.val - 512, by have := q.isLt; omega⟩ : Fin 256)) := by
  by_cases h1 : q.val < 256
  · rw [dif_pos h1]
    exact concatenate_apply_piece (t := S256x768) (1 : Fin 2) [⟨S256x256, x1⟩, ⟨S256x256, x2⟩, ⟨S256x256, x3⟩] hC (ix2 r q) 0 (by show (0 : ℕ) < 3; decide)
      S256x256 x1 rfl rfl 0 rfl (ix2 r (⟨q.val, h1⟩ : Fin 256)) (off_axis r q _ rfl) (Nat.zero_add _)
  · rw [dif_neg h1]
    by_cases h2 : q.val < 512
    · rw [dif_pos h2]
      exact concatenate_apply_piece (t := S256x768) (1 : Fin 2) [⟨S256x256, x1⟩, ⟨S256x256, x2⟩, ⟨S256x256, x3⟩] hC (ix2 r q) 1 (by show (1 : ℕ) < 3; decide)
        S256x256 x2 rfl rfl 256 rfl (ix2 r (⟨q.val - 256, by omega⟩ : Fin 256)) (off_axis r q _ rfl)
        (by show 256 + (q.val - 256) = q.val; omega)
    · rw [dif_neg h2]
      exact concatenate_apply_piece (t := S256x768) (1 : Fin 2) [⟨S256x256, x1⟩, ⟨S256x256, x2⟩, ⟨S256x256, x3⟩] hC (ix2 r q) 2 (by show (2 : ℕ) < 3; decide)
        S256x256 x3 rfl rfl 512 rfl (ix2 r (⟨q.val - 512, by have := q.isLt; omega⟩ : Fin 256)) (off_axis r q _ rfl)
        (by show 512 + (q.val - 512) = q.val; omega)

/-- The side-by-side array at [r, q]: the piece that holds column q. -/
theorem cat_value (w1 w2 w3 : FVec Ideal S256x256 .f32) (hT : S256x256.Transposes [1, 0] S256x256)
    (hB : S_.BroadcastsInDim S256x256 (![] : Fin 0 → Fin S256x256.rank))
    (hC : Shape.Concatenates [S256x256, S256x256, S256x256] S256x768 1) (hL : FTy.bf16.bits < FTy.f32.bits) :
    truncf .bf16 (concatenate S256x768 1
      [⟨S256x256, mulf (transpose S256x256 [1, 0] w1 hT) (broadcastInDim S256x256 ![] hB (constant (F := Ideal) S_ .f32 0x3D800000#32))⟩,
       ⟨S256x256, transpose S256x256 [1, 0] w2 hT⟩, ⟨S256x256, transpose S256x256 [1, 0] w3 hT⟩] hC) hL
      = Cert.Attn.wcat w1 w2 w3 := by
  funext i
  rw [truncf_apply]
  obtain ⟨r, q, rfl⟩ : ∃ (r : Fin 256) (q : Fin 768), i = ix2 r q := ⟨i 0, i 1, eq_ix2 i⟩
  refine (cat3_at _ _ _ hC r q).trans ?_
  unfold Cert.Attn.wcat
  by_cases h1 : q.val < 256
  · rw [dif_pos h1]
    refine Eq.trans ?_ (dif_pos h1).symm
    rw [mulf_apply, transpose_at, broadcastInDim_scalar_apply, constant_apply]
    rfl
  · rw [dif_neg h1]
    refine Eq.trans ?_ (dif_neg h1).symm
    by_cases h2 : q.val < 512
    · rw [dif_pos h2]
      refine Eq.trans ?_ (dif_pos h2).symm
      rw [transpose_at]
    · rw [dif_neg h2]
      refine Eq.trans ?_ (dif_neg h2).symm
      rw [transpose_at]

/-- What the host operations leave in the array of weights: the composed term of the eight operations, read at the
    three argument arrays, is the side-by-side block. -/
theorem wcat_value (m : (ℓ : Loc nD τ sig) → Buf (Elt Ideal) ℓ) (c : Dev nD) :
    StableHlo.after (Cert.KernelIdeal.Gen.hostOps0 (F := Ideal)) (fun b => m (c, b)) (Proc.devRef .tc Cert.KernelIdeal.main_v6)
      = Cert.Attn.wcat (m ((c.tc : Thread nD τ).loc main_arg1)) (m ((c.tc : Thread nD τ).loc main_arg2))
          (m ((c.tc : Thread nD τ).loc main_arg3)) := by
  dsimp only [Gen.hostOps0]
  simp only [StableHlo.after_cons, StableHlo.after_nil]
  -- the narrowing and the concatenation, over the contents V the first six operations leave
  rw [StableHlo.unary_result, StableHlo.nary_result]
  generalize hV : (StableHlo.unary main_arg3 main_v4 _ _ _ : HloOp τ sig (Elt Ideal)).result _ = V
  show truncf (F := Ideal) FTy.bf16 (concatenate (α := Ideal .f32) S256x768 1
        [⟨S256x256, V (Proc.devRef .tc main_v2)⟩, ⟨S256x256, V (Proc.devRef .tc main_v3)⟩, ⟨S256x256, V (Proc.devRef .tc main_v4)⟩]
        Gen.concatenates_S256x256_S256x256_S256x256_S256x768_d1) Gen.bitsLt_bf16_f32 = _
  subst hV
  -- each piece: its own operation's value, the other operations leaving it alone
  repeat (first
    | rw [StableHlo.unary_result] | rw [StableHlo.binary_result] | rw [StableHlo.nullary_result]
    | (rw [StableHlo.unary_result_ne]; rotate_left; decide)
    | (rw [StableHlo.binary_result_ne]; rotate_left; decide)
    | (rw [StableHlo.nullary_result_ne]; rotate_left; decide))
  exact cat_value _ _ _ _ _ _ _

end Cert.KernelIdeal.Val

end
-- ==== Proof.Finite.lean ====
/-
  Finiteness of the inputs: the precondition says each argument array passes jnp.all (|x| < +inf); over the extended
  reals |x| = max x (−x) is below +∞ exactly when x is neither infinity, i.e. a real number.
-/
import proofs.«421308_j15968688407014_3_alg».proof.Defs
import proofs.«421308_j15968688407014_3_alg».proof.Proof.Gen.Pre_finite_inputs
import proofs.«421308_j15968688407014_3_alg».proof.Proof.Spec
import proofs.«421308_j15968688407014_3_alg».proof.Proof.Math
import Idealize.ShloMosaic.Lib.ReduceAll
import Idealize.ShloMosaic.Lib.IdealHost

noncomputable section

namespace Cert.KernelIdeal.Val

open Idealize.ShloMosaic Idealize.ShloMosaic.ValueIdx Idealize.SL.Sem

/-- The word 0x7F800000 is +∞. -/
theorem inf_word : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison bit of |x| < +inf being 1 says x is real. -/
theorem real_of_bit (x : Ideal .f32)
    (h : FloatOps.cmpf (F := Ideal) .olt (FloatOps.hostAbsf x) (Ideal.ofBits .f32 0x7F800000#32) = 1#1) :
    ∃ r : ℝ, x = (r : EReal) := by
  rw [inf_word, Ideal.cmpf_def, Ideal.hostAbsf_def, Ideal.absf_def] at h
  refine real_of_abs_lt_top x ?_
  by_contra hn
  simp [Ideal.cmp, hn] at h

/-- The scalar result shape has one index. -/
instance : Subsingleton Cert.Pre_finite_inputs.S_.Idx := ⟨fun a b => funext fun d => d.elim0⟩

/-- jnp.all (|x| < +inf) = 1 makes every entry real, for any shape. -/
theorem isReal_of_all {s : Shape} {axes : List (Fin s.rank)} (x : FVec Ideal s .f32)
    (hb : Cert.Pre_finite_inputs.S_.BroadcastsInDim s ![]) (hr : s.ReducesTo axes Cert.Pre_finite_inputs.S_)
    (hu : 0 < Cert.Pre_finite_inputs.S_.numel) (init : IVec Cert.Pre_finite_inputs.S_ 1)
    (h : Host.reduce IntOp.andi (cmpf .olt (Host.absf x)
        (broadcastInDim s ![] hb (constant (F := Ideal) Cert.Pre_finite_inputs.S_ .f32 0x7F800000#32))) init hr hu ix0 = 1#1) :
    Cert.Attn.IsReal x := by
  intro i
  have e := Host.reduce_andi_all _ _ hr hu ix0 h i
  exact real_of_bit (x i) e

theorem isReal_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Attn.IsReal (m ((c.tc : Thread Cert.KernelIdeal.nD Cert.KernelIdeal.τ).loc Cert.KernelIdeal.main_arg0))
    ∧ Cert.Attn.IsReal (m ((c.tc : Thread Cert.KernelIdeal.nD Cert.KernelIdeal.τ).loc Cert.KernelIdeal.main_arg1))
    ∧ Cert.Attn.IsReal (m ((c.tc : Thread Cert.KernelIdeal.nD Cert.KernelIdeal.τ).loc Cert.KernelIdeal.main_arg2))
    ∧ Cert.Attn.IsReal (m ((c.tc : Thread Cert.KernelIdeal.nD Cert.KernelIdeal.τ).loc Cert.KernelIdeal.main_arg3)) := by
  have h0 := congrFun (h c) ValueIdx.ix0
  dsimp only [Cert.Pre_finite_inputs.fn, Cert.Pre_finite_inputs.fn_part1] at h0
  -- the and of the four jnp.all bits is 1: each is
  have h0' : IntOp.andi (IntOp.andi (IntOp.andi _ _) _) _ = 1#1 := h0
  obtain ⟨h012, h3⟩ := IntOp.andi_eq_one.1 h0'
  obtain ⟨h01, h2⟩ := IntOp.andi_eq_one.1 h012
  obtain ⟨hA0, hA1⟩ := IntOp.andi_eq_one.1 h01
  exact ⟨isReal_of_all _ _ _ _ _ hA0, isReal_of_all _ _ _ _ _ hA1, isReal_of_all _ _ _ _ _ h2, isReal_of_all _ _ _ _ _ h3⟩

end Cert.KernelIdeal.Val

end
-- ==== Proof.RefRead.lean ====
/-
  The reference's result, read entry by entry, is the specification's reference formula of the three projections.
-/
import proofs.«421308_j15968688407014_3_alg».proof.Proof.Gen.ReferenceIdeal.Read
import proofs.«421308_j15968688407014_3_alg».proof.Proof.Spec

noncomputable section

namespace Cert.ReferenceIdeal.RefValue

open Idealize.ShloMosaic Idealize.ShloMosaic.ValueIdx Cert.Attn
open Cert.ReferenceIdeal Cert.ReferenceIdeal.Gen Cert.ReferenceIdeal.Read
open scoped BigOperators

/-- The token array's and a weight's contents at the ideal values. -/
abbrev X0 : Type := (⟨S2x8192x256, .f32⟩ : BufTy).Contents (Elt Ideal)
abbrev XW : Type := (⟨S256x256, .f32⟩ : BufTy).Contents (Elt Ideal)

/-! ## The three projections: x · Wᵀ -/

theorem v0_at (x0 : X0) (x1 : XW) (b : Fin 2) (n : Fin 8192) (e : Fin 256) :
    val_main_v0 (F := Ideal) x0 x1 (ix3 b n e) = proj x0 x1 b n e := by
  rw [val_main_v0_apply]
  unfold proj
  refine Finset.sum_congr rfl fun d _ => ?_
  have el : lidx_main_v0 (ix3 b n e) d = ix3 b n d :=
    funext fun a => Fin.ext (by match a with | ⟨0, _⟩ => rfl | ⟨1, _⟩ => rfl | ⟨2, _⟩ => rfl)
  have er : ridx_main_v0 (ix3 b n e) d = ix2 e d :=
    funext fun a => Fin.ext (by match a with | ⟨0, _⟩ => rfl | ⟨1, _⟩ => rfl)
  rw [el, er]

theorem v1_at (x0 : X0) (x2 : XW) (b : Fin 2) (n : Fin 8192) (e : Fin 256) :
    val_main_v1 (F := Ideal) x0 x2 (ix3 b n e) = proj x0 x2 b n e := by
  rw [val_main_v1_apply]
  unfold proj
  refine Finset.sum_congr rfl fun d _ => ?_
  have el : lidx_main_v1 (ix3 b n e) d = ix3 b n d :=
    funext fun a => Fin.ext (by match a with | ⟨0, _⟩ => rfl | ⟨1, _⟩ => rfl | ⟨2, _⟩ => rfl)
  have er : ridx_main_v1 (ix3 b n e) d = ix2 e d :=
    funext fun a => Fin.ext (by match a with | ⟨0, _⟩ => rfl | ⟨1, _⟩ => rfl)
  rw [el, er]

theorem v2_at (x0 : X0) (x3 : XW) (b : Fin 2) (n : Fin 8192) (e : Fin 256) :
    val_main_v2 (F := Ideal) x0 x3 (ix3 b n e) = proj x0 x3 b n e := by
  rw [val_main_v2_apply]
  unfold proj
  refine Finset.sum_congr rfl fun d _ => ?_
  have el : lidx_main_v2 (ix3 b n e) d = ix3 b n d :=
    funext fun a => Fin.ext (by match a with | ⟨0, _⟩ => rfl | ⟨1, _⟩ => rfl | ⟨2, _⟩ => rfl)
  have er : ridx_main_v2 (ix3 b n e) d = ix2 e d :=
    funext fun a => Fin.ext (by match a with | ⟨0, _⟩ => rfl | ⟨1, _⟩ => rfl)
  rw [el, er]

/-! ## The scores: q · kᵀ, then divided by √256 -/

theorem v3_at (x0 : X0) (x1 x2 : XW) (b : Fin 2) (i j : Fin 8192) :
    val_main_v3 (F := Ideal) x0 x1 x2 (ix3 b i j) = score (proj x0 x1) (proj x0 x2) b i j := by
  rw [val_main_v3_apply]
  unfold score
  refine Finset.sum_congr rfl fun e _ => ?_
  have el : lidx_main_v3 (ix3 b i j) e = ix3 b i e :=
    funext fun a => Fin.ext (by match a with | ⟨0, _⟩ => rfl | ⟨1, _⟩ => rfl | ⟨2, _⟩ => rfl)
  have er : ridx_main_v3 (ix3 b i j) e = ix3 b j e :=
    funext fun a => Fin.ext (by match a with | ⟨0, _⟩ => rfl | ⟨1, _⟩ => rfl | ⟨2, _⟩ => rfl)
  rw [el, er, v0_at, v1_at]

/-- The divisor, broadcast to every entry: the root of the constant 256. -/
theorem v5_at (i : S2x8192x8192.Idx) : val_main_v5 (F := Ideal) i = Ideal.sqrt c256 := by
  rw [val_main_v5_apply, val_main_v4_apply, val_main_cst_apply]
  rfl

theorem v6_at (x0 : X0) (x1 x2 : XW) (b : Fin 2) (i j : Fin 8192) :
    val_main_v6 (F := Ideal) x0 x1 x2 (ix3 b i j) = refScore (proj x0 x1) (proj x0 x2) b i j := by
  rw [val_main_v6_apply, v3_at, v5_at]
  rfl

/-! ## The column maximum: a fold of max from −∞ over the query axis -/

/-- The word of −∞ is the bottom element. -/
theorem ofBits_neg_inf : Ideal.ofBits .f32 0xFF800000#32 = (⊥ : EReal) := by
  simp [Ideal.ofBits, Ideal.ieee]

theorem reduces_d1 : S2x8192x8192.Reduces [1] S2x8192 := by decide

/-- A fold of the maximum from the bottom element is the supremum. -/
theorem fold_max_eq_sup {ι : Type} (s : Finset ι) (f : ι → EReal) :
    Finset.fold (FloatOps.maximumf (F := Ideal) (φ := .f32)) (⊥ : EReal) f s = s.sup f := rfl

theorem v7_at (x0 : X0) (x1 x2 : XW) (b : Fin 2) (j : Fin 8192) :
    val_main_v7 (F := Ideal) x0 x1 x2 (ix2 b j) = colMax (refScore (proj x0 x1) (proj x0 x2)) b j := by
  unfold val_main_v7
  rw [Host.reduce_eq_fold_single FloatOps.maximumf _ _ reducesTo_S2x8192x8192_S2x8192_d1 reduces_d1 h_S_ (ix2 b j)]
  have hf : (val_main_v6 (F := Ideal) x0 x1 x2 ∘ reduces_d1.lift (ix2 b j))
      = fun k : Fin 8192 => refScore (proj x0 x1) (proj x0 x2) b k j := funext fun (k : Fin 8192) => by
    have ek : reduces_d1.lift (ix2 b j) k = ix3 b k j :=
      funext fun a => Fin.ext (by match a with | ⟨0, _⟩ => rfl | ⟨1, _⟩ => rfl | ⟨2, _⟩ => rfl)
    show val_main_v6 (F := Ideal) x0 x1 x2 (reduces_d1.lift (ix2 b j) k) = _
    rw [ek, v6_at]
  rw [hf, val_main_cst_0_apply, Ideal.ofBits_def, ofBits_neg_inf]
  exact fold_max_eq_sup _ _

/-! ## The maximum taken against −∞ once more, and broadcast back over the queries -/

theorem v9_at (x0 : X0) (x1 x2 : XW) (b : Fin 2) (j : Fin 8192) :
    val_main_v9 (F := Ideal) x0 x1 x2 (ix2 b j) = max ⊥ (colMax (refScore (proj x0 x1) (proj x0 x2)) b j) := by
  rw [val_main_v9_apply, val_main_v8_apply, val_main_cst_1_apply, v7_at, Ideal.ofBits_def, ofBits_neg_inf]
  rfl

theorem v11_at (x0 : X0) (x1 x2 : XW) (b : Fin 2) (i j : Fin 8192) :
    val_main_v11 (F := Ideal) x0 x1 x2 (ix3 b i j) = max ⊥ (colMax (refScore (proj x0 x1) (proj x0 x2)) b j) := by
  rw [val_main_v11_apply, val_main_v10_apply]
  have e : idx_main_v10 (idx_main_v11 (ix3 b i j)) = ix2 b j :=
    funext fun a => Fin.ext (by match a with | ⟨0, _⟩ => rfl | ⟨1, _⟩ => rfl)
  rw [e, v9_at]

/-! ## The shifted exponentials and their column sums -/

theorem v13_at (x0 : X0) (x1 x2 : XW) (b : Fin 2) (i j : Fin 8192) :
    val_main_v13 (F := Ideal) x0 x1 x2 (ix3 b i j) = refExp (proj x0 x1) (proj x0 x2) b i j := by
  rw [val_main_v13_apply, val_main_v12_apply, v6_at, v11_at]
  rfl

theorem v14_at (x0 : X0) (x1 x2 : XW) (b : Fin 2) (j : Fin 8192) :
    val_main_v14 (F := Ideal) x0 x1 x2 (ix2 b j) = 0 + ∑ i' : Fin 8192, refExp (proj x0 x1) (proj x0 x2) b i' j := by
  rw [val_main_v14_apply, val_main_cst_2_apply, Ideal.ofBits_def, Ideal.ofBits_zero_f32]
  refine congrArg (0 + ·) (Finset.sum_congr rfl fun k _ => ?_)
  have e : idx_main_v14 (ix2 b j) k = ix3 b k j :=
    funext fun a => Fin.ext (by match a with | ⟨0, _⟩ => rfl | ⟨1, _⟩ => rfl | ⟨2, _⟩ => rfl)
  rw [e, v13_at]

theorem v16_at (x0 : X0) (x1 x2 : XW) (b : Fin 2) (i j : Fin 8192) :
    val_main_v16 (F := Ideal) x0 x1 x2 (ix3 b i j) = 0 + ∑ i' : Fin 8192, refExp (proj x0 x1) (proj x0 x2) b i' j := by
  rw [val_main_v16_apply, val_main_v15_apply]
  have e : idx_main_v15 (idx_main_v16 (ix3 b i j)) = ix2 b j :=
    funext fun a => Fin.ext (by match a with | ⟨0, _⟩ => rfl | ⟨1, _⟩ => rfl)
  rw [e, v14_at]

/-- The attention weight: the exponential over its column's sum. -/
theorem v17_at (x0 : X0) (x1 x2 : XW) (b : Fin 2) (i j : Fin 8192) :
    val_main_v17 (F := Ideal) x0 x1 x2 (ix3 b i j)
      = Ideal.div (refExp (proj x0 x1) (proj x0 x2) b i j) (0 + ∑ i' : Fin 8192, refExp (proj x0 x1) (proj x0 x2) b i' j) := by
  rw [val_main_v17_apply, v13_at, v16_at]
  rfl

/-! ## The result: the weights against the values -/

theorem ref_value (x0 : (⟨S2x8192x256, .f32⟩ : BufTy).Contents (Elt Ideal)) (x1 x2 x3 : (⟨S256x256, .f32⟩ : BufTy).Contents (Elt Ideal))
    (b : Fin 2) (i : Fin 8192) (d : Fin 256) :
    Cert.ReferenceIdeal.Read.val_main_v18 x0 x1 x2 x3 (ix3 b i d)
      = Cert.Attn.refOut (Cert.Attn.proj x0 x1) (Cert.Attn.proj x0 x2) (Cert.Attn.proj x0 x3) b i d := by
  rw [val_main_v18_apply]
  unfold refOut
  refine Finset.sum_congr rfl fun j _ => ?_
  have el : lidx_main_v18 (ix3 b i d) j = ix3 b i j :=
    funext fun a => Fin.ext (by match a with | ⟨0, _⟩ => rfl | ⟨1, _⟩ => rfl | ⟨2, _⟩ => rfl)
  have er : ridx_main_v18 (ix3 b i d) j = ix3 b j d :=
    funext fun a => Fin.ext (by match a with | ⟨0, _⟩ => rfl | ⟨1, _⟩ => rfl | ⟨2, _⟩ => rfl)
  rw [el, er, v17_at, v2_at]

end Cert.ReferenceIdeal.RefValue

end
-- ==== Proof.ValChain.lean ====
/-
  The result array of the idealized kernel, followed through the program: the host operations lay the three weights
  side by side (the query weight scaled by 1/16); the first pipeline leaves the three projections; the second the
  per-key statistic M + log L of the scores' columns; the third the weighted sum of the values.  With real inputs that
  is the reference's softmax over the query axis applied to the values.
-/
import proofs.«421308_j15968688407014_3_alg».proof.Proof.FrRun
import proofs.«421308_j15968688407014_3_alg».proof.Proof.ValQkv
import proofs.«421308_j15968688407014_3_alg».proof.Proof.ValStats
import proofs.«421308_j15968688407014_3_alg».proof.Proof.ValOut
import proofs.«421308_j15968688407014_3_alg».proof.Proof.HostW
import proofs.«421308_j15968688407014_3_alg».proof.Proof.Finite
import proofs.«421308_j15968688407014_3_alg».proof.Proof.Math
import proofs.«421308_j15968688407014_3_alg».proof.Proof.RefRead

set_option maxRecDepth 16384

noncomputable section

namespace Cert.KernelIdeal.Val

open Cert.KernelIdeal Cert.KernelIdeal.Gen Cert.KernelIdeal.Fr Cert.Attn
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

/-- The four argument arrays as launched. -/
abbrev ax : T3.Idx → EReal := m ((c.tc : Thread nD τ).loc main_arg0)
abbrev awq : W2.Idx → EReal := m ((c.tc : Thread nD τ).loc main_arg1)
abbrev awk : W2.Idx → EReal := m ((c.tc : Thread nD τ).loc main_arg2)
abbrev awv : W2.Idx → EReal := m ((c.tc : Thread nD τ).loc main_arg3)

/-- The host operations leave the tokens as launched … -/
theorem entry_x : V1 m c main_arg0 = ax m c :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- … and the three weights side by side in the array the first pipeline multiplies by. -/
theorem entry_w : V1 m c main_v6 = wcat (awq m c) (awk m c) (awv m c) := wcat_value m c

/-! ## After the first pipeline: the three projections -/

theorem q_after0 (b : Fin 2) (n : Fin 8192) (e : Fin 256) :
    V2 m c main_v7_0 (ix3 b n e) = projScaled (ax m c) (awq m c) b n e := by
  refine (congrFun (W2_arr m c 2) (ix3 b n e)).trans ?_
  rw [Qkv.arr0_2, entry_x, entry_w, projCat_wcat_q]

theorem k_after0 (b : Fin 2) (n : Fin 8192) (e : Fin 256) :
    V2 m c main_v7_1 (ix3 b n e) = proj (ax m c) (awk m c) b n e := by
  refine (congrFun (W2_arr m c 3) (ix3 b n e)).trans ?_
  rw [Qkv.arr0_3, entry_x, entry_w, projCat_wcat_k]

theorem v_after0 (b : Fin 2) (n : Fin 8192) (e : Fin 256) :
    V2 m c main_v7_2 (ix3 b n e) = proj (ax m c) (awv m c) b n e := by
  refine (congrFun (W2_arr m c 4) (ix3 b n e)).trans ?_
  rw [Qkv.arr0_4, entry_x, entry_w, projCat_wcat_v]

/-! ## The later pipelines find those arrays unchanged -/

theorem q_keep1 : V3 m c main_v7_0 = V2 m c main_v7_0 :=
  (W3_arr m c 0).trans (((dat1 (V2 m) c).arrAt_in 0 rfl _).trans (A_eq1 (V2 m) c 0))
theorem k_keep1 : V3 m c main_v7_1 = V2 m c main_v7_1 :=
  (W3_arr m c 1).trans (((dat1 (V2 m) c).arrAt_in 1 rfl _).trans (A_eq1 (V2 m) c 1))
theorem v_keep1 : V3 m c main_v7_2 = V2 m c main_v7_2 := W3_of_ne m c main_v7_2 (by decide)

/-! ## The projections of real inputs are real -/

theorem q2_real (hx : IsReal (ax m c)) (hq : IsReal (awq m c)) : ∀ i, ∃ r : ℝ, V2 m c main_v7_0 i = (r : EReal) := by
  intro (i : T3.Idx)
  obtain ⟨b, n, e, rfl⟩ : ∃ b n e, i = ix3 b n e := ⟨i 0, i 1, i 2, eq_ix3 i⟩
  rw [q_after0]; exact projScaled_isReal _ _ hx hq b n e

theorem k2_real (hx : IsReal (ax m c)) (hk : IsReal (awk m c)) : ∀ i, ∃ r : ℝ, V2 m c main_v7_1 i = (r : EReal) := by
  intro (i : T3.Idx)
  obtain ⟨b, n, e, rfl⟩ : ∃ b n e, i = ix3 b n e := ⟨i 0, i 1, i 2, eq_ix3 i⟩
  rw [k_after0]; exact proj_isReal _ _ hx hk b n e

/-! ## After the second pipeline: one number per key, M + log L of its column of scores -/

theorem stat_after1 (hx : IsReal (ax m c)) (hq : IsReal (awq m c)) (hk : IsReal (awk m c)) (b : Fin 2) (j : Fin 8192) :
    V3 m c main_v8 (ix3 b 0 j)
      = colStat (score (projScaled (ax m c) (awq m c)) (proj (ax m c) (awk m c))) b j := by
  refine (congrFun (W3_arr m c 2) (ix3 b 0 j)).trans ?_
  rw [Stats.arr1_2 (V2 m) c (q2_real m c hx hq) (k2_real m c hx hk) b j]
  have hQ : (fun (b : Fin 2) (n : Fin 8192) (e : Fin 256) => V2 m c main_v7_0 (ix3 b n e)) = projScaled (ax m c) (awq m c) := by
    funext b n e; exact q_after0 m c b n e
  have hK : (fun (b : Fin 2) (n : Fin 8192) (e : Fin 256) => V2 m c main_v7_1 (ix3 b n e)) = proj (ax m c) (awk m c) := by
    funext b n e; exact k_after0 m c b n e
  rw [hQ, hK]

/-! ## After the third pipeline: the result -/

theorem out_after2 (hx : IsReal (ax m c)) (hq : IsReal (awq m c)) (hk : IsReal (awk m c)) (b : Fin 2) (i : Fin 8192) (d : Fin 256) :
    (dat2 (V3 m) c).arrAt 4 cfg2.N (ix3 b i d)
      = outK (score (projScaled (ax m c) (awq m c)) (proj (ax m c) (awk m c)))
          (colStat (score (projScaled (ax m c) (awq m c)) (proj (ax m c) (awk m c)))) (proj (ax m c) (awv m c)) b i d := by
  rw [Out.arr2_4 (V3 m) c b i d]
  have hQ : (fun (b : Fin 2) (n : Fin 8192) (e : Fin 256) => V3 m c main_v7_0 (ix3 b n e)) = projScaled (ax m c) (awq m c) := by
    funext b n e; rw [q_keep1]; exact q_after0 m c b n e
  have hK : (fun (b : Fin 2) (n : Fin 8192) (e : Fin 256) => V3 m c main_v7_1 (ix3 b n e)) = proj (ax m c) (awk m c) := by
    funext b n e; rw [k_keep1]; exact k_after0 m c b n e
  have hV : (fun (b : Fin 2) (j : Fin 8192) (d : Fin 256) => V3 m c main_v7_2 (ix3 b j d)) = proj (ax m c) (awv m c) := by
    funext b j d; rw [v_keep1]; exact v_after0 m c b j d
  have hM : (fun (b : Fin 2) (j : Fin 8192) => V3 m c main_v8 (ix3 b 0 j))
      = colStat (score (projScaled (ax m c) (awq m c)) (proj (ax m c) (awk m c))) := by
    funext b j; exact stat_after1 m c hx hq hk b j
  rw [hQ, hK, hV, hM]

/-- THE VALUE: under the precondition the reference's result, as a function of the arguments, is the array the third
    pipeline leaves. -/
theorem reference_eq_kernel (hpre : Cert.Pre_KernelIdeal (hPre_finite_inputs := Cert.Pre_finite_inputs.Gen.facts) m) (c : Dev nD) :
    Cert.ReferenceIdeal.Read.val_main_v18 (ax m c) (awq m c) (awk m c) (awv m c) = (dat2 (V3 m) c).arrAt 4 cfg2.N := by
  obtain ⟨hx, hq, hk, hv⟩ := isReal_of_pre m hpre c
  funext (i : T3.Idx)
  obtain ⟨b, n, e, rfl⟩ : ∃ b n e, i = ix3 b n e := ⟨i 0, i 1, i 2, eq_ix3 i⟩
  rw [Cert.ReferenceIdeal.RefValue.ref_value, out_after2 m c hx hq hk b n e,
    kernel_eq_reference (ax m c) (awq m c) (awk m c) (awv m c) hx hq hk hv b n e]

end Cert.KernelIdeal.Val

end
-- ==== Proof.lean ====
/-
  The certificate of an attention kernel with its softmax over the QUERY axis.

  Three pipelines: (1) all three projections of a block of tokens in one product with the three weights laid side by
  side, the score scale 1/16 folded into the query weight; (2) for a block of keys, a running maximum and rescaled sum
  of exponentials over chunks of queries, kept as the one number M + log L per key; (3) for a block of queries, the sum
  over chunks of keys of exp (score − (M + log L)) times the values.  The reference divides the scores by √256, takes
  the maximum and the sum over the query axis, divides, and multiplies by the values.  At the ideal values, with real
  inputs, 1/16 moves through the finite sums and meets the quotient by 16, and exp (s − M − log L) = exp (s − M) / L.

  The frames of the two kernel programs are the run of the host operations and the three pipelines, one text for any
  float instance; the reference's frame is its run; nothing was rewritten by the idealization.
-/
import proofs.«421308_j15968688407014_3_alg».proof.Defs
import proofs.«421308_j15968688407014_3_alg».proof.Proof.Gen.Kernel
import proofs.«421308_j15968688407014_3_alg».proof.Proof.Gen.KernelIdeal
import proofs.«421308_j15968688407014_3_alg».proof.Proof.Gen.ReferenceIdeal
import proofs.«421308_j15968688407014_3_alg».proof.Proof.Gen.Pre_finite_inputs
import proofs.«421308_j15968688407014_3_alg».proof.Proof.BitsFrRun
import proofs.«421308_j15968688407014_3_alg».proof.Proof.FrRun
import proofs.«421308_j15968688407014_3_alg».proof.Proof.ValChain
import proofs.«421308_j15968688407014_3_alg».proof.Proof.RefRead
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_p : Cert.frame_Kernel (hKernel := Cert.Kernel.Gen.facts) (hPre_finite_inputs := Cert.Pre_finite_inputs.Gen.facts) :=
  fun m ρ _ => Cert.Kernel.Fr.frame m ρ

/-- So does the idealized kernel. -/
theorem frame_pi : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with one result array: the kernel's, which entry by
    entry is the reference's formula of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Fr.dat2 (Cert.KernelIdeal.Fr.V3 m) c).arrAt 4 Cert.KernelIdeal.cfg2.N,
    Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2]
  exact Cert.KernelIdeal.Val.reference_eq_kernel m hpre c

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
